-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8192x1024 .f32) (main_arg1 : FVec F S8192x1024 .f32) (main_arg2 : FVec F S1024x1024 .f32) (main_arg3 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S8192x8192 : Shape := ⟨2, ![8192, 8192]⟩
abbrev S256x1024 : Shape := ⟨2, ![256, 1024]⟩
abbrev S256x8192 : Shape := ⟨2, ![256, 8192]⟩
abbrev S256x1 : Shape := ⟨2, ![256, 1]⟩
abbrev S256 : Shape := ⟨1, ![256]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x1024, .bf16⟩
  | .hbm, ⟨5, _⟩ => ⟨S1x1024, .f32⟩
  | .hbm, ⟨6, _⟩ => ⟨S8192x1024, .bf16⟩
  | .hbm, ⟨7, _⟩ => ⟨S8192x1024, .bf16⟩
  | .hbm, ⟨8, _⟩ => ⟨S8192x8192, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S256x1024, .bf16⟩
  | .local _ .vmem, ⟨7, _⟩ => ⟨S256x1024, .bf16⟩
  | .local _ .vmem, ⟨8, _⟩ => ⟨S8192x1024, .bf16⟩
  | .local _ .vmem, ⟨9, _⟩ => ⟨S256x8192, .f32⟩
  | .local _ .vmem, ⟨10, _⟩ => ⟨S256x8192, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

@[reducible] def k1_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k1_mult1 (k1_t1 : Fin k1_t1_loop.trips) : BitVec 32 :=
  let c0_i32 : BitVec 32 := 0#32
  let c1_i32 : BitVec 32 := 1#32
  let arg4 : BitVec 32 := Scf.iv c0_i32 c1_i32 k1_t1
  let c1024_i32 : BitVec 32 := 1024#32
  let v11 : BitVec 32 := Scalar.muli arg4 c1024_i32
  v11
def k1_off1 (k1_t1 : Fin k1_t1_loop.trips) : Fin 2 → Nat :=
  let c0_i32 : BitVec 32 := 0#32
  let c1_i32 : BitVec 32 := 1#32
  let arg4 : BitVec 32 := Scf.iv c0_i32 c1_i32 k1_t1
  let c1024_i32 : BitVec 32 := 1024#32
  let v11 : BitVec 32 := Scalar.muli arg4 c1024_i32
  let v12 : BitVec 32 := v11
  let v13 : Index := Scalar.indexCast v12
  let c0_12 : Index := 0#32
  ![v13.toNat, 0]
def k1_off2 (k1_t1 : Fin k1_t1_loop.trips) : Fin 2 → Nat :=
  let c0_14 : Index := 0#32
  let c0_i32 : BitVec 32 := 0#32
  let c1_i32 : BitVec 32 := 1#32
  let arg4 : BitVec 32 := Scf.iv c0_i32 c1_i32 k1_t1
  let c1024_i32 : BitVec 32 := 1024#32
  let v11 : BitVec 32 := Scalar.muli arg4 c1024_i32
  let v12 : BitVec 32 := v11
  let v17 : Index := Scalar.indexCast v12
  ![0, v17.toNat]
@[reducible] def k1_t2_loop : Scf.Loop 32 :=
  let c0_i32_3 : BitVec 32 := 0#32
  let c8_i32_4 : BitVec 32 := 8#32
  let v6 : BitVec 32 := Scalar.addi c0_i32_3 c8_i32_4
  let c1_i32_5 : BitVec 32 := 1#32
  ⟨c0_i32_3, v6, c1_i32_5⟩
def k1_mult2 (k1_t2 : Fin k1_t2_loop.trips) : BitVec 32 :=
  let c0_i32_3 : BitVec 32 := 0#32
  let c1_i32_5 : BitVec 32 := 1#32
  let arg4 : BitVec 32 := Scf.iv c0_i32_3 c1_i32_5 k1_t2
  let c1024_i32 : BitVec 32 := 1024#32
  let v11 : BitVec 32 := Scalar.muli arg4 c1024_i32
  v11
def k1_off3 (k1_t2 : Fin k1_t2_loop.trips) : Fin 2 → Nat :=
  let c0_12 : Index := 0#32
  let c0_i32_3 : BitVec 32 := 0#32
  let c1_i32_5 : BitVec 32 := 1#32
  let arg4 : BitVec 32 := Scf.iv c0_i32_3 c1_i32_5 k1_t2
  let c1024_i32 : BitVec 32 := 1024#32
  let v11 : BitVec 32 := Scalar.muli arg4 c1024_i32
  let v12 : BitVec 32 := v11
  let v13 : Index := Scalar.indexCast v12
  ![0, v13.toNat]
@[reducible] def k1_t3_loop : Scf.Loop 32 :=
  let c0_i32_8 : BitVec 32 := 0#32
  let c8_i32_9 : BitVec 32 := 8#32
  let v10 : BitVec 32 := Scalar.addi c0_i32_8 c8_i32_9
  let c1_i32_10 : BitVec 32 := 1#32
  ⟨c0_i32_8, v10, c1_i32_10⟩
def k1_mult3 (k1_t3 : Fin k1_t3_loop.trips) : BitVec 32 :=
  let c0_i32_8 : BitVec 32 := 0#32
  let c1_i32_10 : BitVec 32 := 1#32
  let arg4 : BitVec 32 := Scf.iv c0_i32_8 c1_i32_10 k1_t3
  let c1024_i32 : BitVec 32 := 1024#32
  let v11 : BitVec 32 := Scalar.muli arg4 c1024_i32
  v11
def k1_off4 (k1_t3 : Fin k1_t3_loop.trips) : Fin 2 → Nat :=
  let c0_12 : Index := 0#32
  let c0_i32_8 : BitVec 32 := 0#32
  let c1_i32_10 : BitVec 32 := 1#32
  let arg4 : BitVec 32 := Scf.iv c0_i32_8 c1_i32_10 k1_t3
  let c1024_i32 : BitVec 32 := 1024#32
  let v11 : BitVec 32 := Scalar.muli arg4 c1024_i32
  let v12 : BitVec 32 := v11
  let v13 : Index := Scalar.indexCast v12
  ![0, v13.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S256x1024_S256 : S256x1024.Reduces [1] S256
  shapeCasts_S256_S256x1 : S256.ShapeCasts S256x1
  broadcasts_S256x1_S256x1024 : S256x1.Broadcasts S256x1024
  dot_S512x1024_S1024x1024_S512x1024_1_1_0_0_n_n_wf : DotDims.WF S512x1024 S1024x1024 S512x1024 [1] [1] [0] [0] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S1024x1024.size a ≤ S8192x1024.size a
  k1_off2_inb : ∀ k1_t1 : Fin k1_t1_loop.trips, ∀ a, (k1_off2 k1_t1) a + S256x1024.size a ≤ S256x8192.size a
  k1_t2_ok : k1_t2_loop.OK
  k1_mult2_dvd : ∀ k1_t2 : Fin k1_t2_loop.trips, 1024 ∣ (k1_mult2 k1_t2).toNat
  k1_off3_inb : ∀ k1_t2 : Fin k1_t2_loop.trips, ∀ a, (k1_off3 k1_t2) a + S256x1024.size a ≤ S256x8192.size a
  k1_t3_ok : k1_t3_loop.OK
  k1_mult3_dvd : ∀ k1_t3 : Fin k1_t3_loop.trips, 1024 ∣ (k1_mult3 k1_t3).toNat
  k1_off4_inb : ∀ k1_t3 : Fin k1_t3_loop.trips, ∀ a, (k1_off4 k1_t3) a + S256x1024.size a ≤ S256x8192.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S8192x1024.size a
  hwx1_0 : ∀ i : grid1.Coords, EltTy.bits .bf16 = 32 ∨ (Rect.block (s := S8192x1024) S256x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x1024.size a ≤ S8192x1024.size a
  hwx1_1 : ∀ i : grid1.Coords, EltTy.bits .bf16 = 32 ∨ (Rect.block (s := S8192x1024) S8192x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x8192.size a ≤ S8192x8192.size a
  hwx1_2 : ∀ i : grid1.Coords, EltTy.bits .f32 = 32 ∨ (Rect.block (s := S8192x8192) S256x8192.size (cc1_transform_2 i) (hinb1_2 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S8192x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S256x8192.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x8192, .f32⟩
  | .hbm, ⟨10, _⟩ => ⟨S_, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192x1, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S8192x8192, .f32⟩
  | .hbm, ⟨23, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S1024x1024_S8192x1024_1_0_0_1_n_n_wf : DotDims.WF S8192x1024 S1024x1024 S8192x1024 [1] [0] [0] [1] [] []
  dot_S8192x1024_S8192x1024_S8192x8192_1_1_0_0_n_n_wf : DotDims.WF S8192x1024 S8192x1024 S8192x8192 [1] [1] [0] [0] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf

class Facts : Prop extends Facts₀ where

variable [Facts]
-- ==== Proof.Attention.lean ====
/-
  The mathematics both programs compute, as plain functions on the extended reals.

  A history row `s` is sent through an affine map, `proj s o = ∑ i, hist s i * W o i + b o`; a query row `q`
  is scored against every projected row, `score q s = ∑ d, os q d * proj s d`; each row of scores is then put
  through a softmax.  Two arrangements of that softmax are stated:

  * the one-pass form (`refSoft`): the row's maximum over all 8192 columns, the exponentials of the differences,
    their sum from zero, and the quotient of each exponential by that sum;
  * the chunked form (`kerSoft`): the columns in eight chunks of 1024; a running maximum over the chunks'
    maxima, a running sum over the chunks' sums of exponentials, and the product of each exponential with the
    reciprocal of the total.

  The two agree wherever every score is a real number (Proof/AttentionLaws.lean).
-/
import Idealize.ShloMosaic.PureOps.Ideal
import Idealize.ShloMosaic.Lib.ValueIdx

noncomputable section

open scoped BigOperators

namespace Cert.Attn

open Idealize.ShloMosaic Idealize.ShloMosaic.ValueIdx

/-- A matrix of extended reals, indexed as the programs' rank-2 arrays are. -/
abbrev Mat (a b : ℕ) : Type := (⟨2, ![a, b]⟩ : Shape).Idx → EReal
/-- A vector of extended reals, indexed as the programs' rank-1 arrays are. -/
abbrev Row (a : ℕ) : Type := (⟨1, ![a]⟩ : Shape).Idx → EReal

/-- The value of the f32 pattern both programs start a maximum from (minus infinity). -/
def ninf : EReal := Ideal.ofBits .f32 0xFF800000#32
/-- The value of the f32 pattern of the numerator of the reciprocal (one). -/
def one : EReal := Ideal.ofBits .f32 0x3F800000#32

/-- The projected history: entry `o` of the affine image of history row `s`. -/
def proj (hist : Mat 8192 1024) (W : Mat 1024 1024) (b : Row 1024) (s : Fin 8192) (o : Fin 1024) : EReal :=
  (∑ i : Fin 1024, hist (ix2 s i) * W (ix2 o i)) + b (ix1 o)

/-- The score of query row `q` against projected row `s`. -/
def score (os : Mat 8192 1024) (P : Fin 8192 → Fin 1024 → EReal) (q s : Fin 8192) : EReal :=
  ∑ d : Fin 1024, os (ix2 q d) * P s d

/-! ## The one-pass softmax -/

/-- A row's maximum, from minus infinity, joined once more with minus infinity. -/
def refMax (x : Fin 8192 → EReal) : EReal := max ninf (Finset.univ.fold max ninf x)

/-- The softmax of row `q` at column `s`: the exponential over the sum of the row's exponentials. -/
def refSoft (x : Fin 8192 → Fin 8192 → EReal) (q s : Fin 8192) : EReal :=
  Ideal.div (Ideal.exp (x q s - refMax (x q))) (0 + ∑ s' : Fin 8192, Ideal.exp (x q s' - refMax (x q)))

/-! ## The chunked softmax -/

/-- Column `j` of chunk `k` (chunks of 1024 columns; total in `k` so that recursions over `ℕ` can cite it). -/
def chunkIdx (k : ℕ) (j : Fin 1024) : Fin 8192 := ⟨(1024 * k + j.val) % 8192, Nat.mod_lt _ (by norm_num)⟩

/-- The running maximum before chunk `k`: from minus infinity, joined with each earlier chunk's own maximum. -/
def kMax (x : Fin 8192 → EReal) : ℕ → EReal
  | 0 => ninf
  | k + 1 => max (kMax x k) (Finset.univ.fold max ninf fun j : Fin 1024 => x (chunkIdx k j))

/-- The running sum before chunk `k` of the exponentials of the differences from `M`: from zero, each earlier
    chunk's own sum added on. -/
def kSum (x : Fin 8192 → EReal) (M : EReal) : ℕ → EReal
  | 0 => 0
  | k + 1 => kSum x M k + ∑ j : Fin 1024, Ideal.exp (x (chunkIdx k j) - M)

/-- The chunked softmax of row `q` at column `s`: the exponential times the reciprocal of the eight chunks' total. -/
def kerSoft (x : Fin 8192 → Fin 8192 → EReal) (q s : Fin 8192) : EReal :=
  Ideal.exp (x q s - kMax (x q) 8) * Ideal.div one (kSum (x q) (kMax (x q) 8) 8)

/-! ## The two results as arrays -/

/-- The one-pass result: the softmax of the scores, as an [8192, 8192] array. -/
def refOut (os hist : Mat 8192 1024) (W : Mat 1024 1024) (b : Row 1024) : Mat 8192 8192 :=
  fun j => refSoft (score os (proj hist W b)) (j 0) (j 1)

/-- The chunked result, as an [8192, 8192] array. -/
def kerOut (os hist : Mat 8192 1024) (W : Mat 1024 1024) (b : Row 1024) : Mat 8192 8192 :=
  fun j => kerSoft (score os (proj hist W b)) (j 0) (j 1)

end Cert.Attn

end
-- ==== Proof.KernelPayloads.lean ====
/-
  The kernels' arithmetic, read at an index.

  The projection kernel's stored value at row `p`, column `o` of a block is the contraction of the history block's row
  `p` with the weight matrix's row `o`, plus the bias entry `o`.  The energies kernel's values: a chunk of scores (row
  `r` of the query block against row `j` of a chunk of projected rows), the running maximum joined with a chunk's row
  maximum, the exponential of a score minus the row's maximum, the running sum plus a chunk's row sum of exponentials,
  and an exponential times the reciprocal of the row's total.
-/
import proofs.«404621_j31241592111494_3_alg».proof.Proof.Gen.KernelIdeal.Skeleton
import proofs.«404621_j31241592111494_3_alg».proof.Proof.Attention
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.Attn

/-! ## The two matrix products: both contract axis 1 of each operand -/

abbrev D512 := dot_S512x1024_S1024x1024_S512x1024_1_1_0_0_n_n
abbrev D256 := dot_S256x1024_S1024x1024_S256x1024_1_1_0_0_n_n

theorem lhs512_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs512_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs512_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs512_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The [512,1024] × [1024,1024]ᵀ product into a zero accumulator, at row `p`, column `o`. -/
theorem matmul512_apply (a : FVec Ideal S512x1024 .bf16) (b : FVec Ideal S1024x1024 .bf16) (p : Fin 512) (o : Fin 1024) :
    matmul dot_S512x1024_S1024x1024_S512x1024_1_1_0_0_n_n none a b (constant (F := Ideal) S512x1024 .f32 0x00000000#32) (ix2 p o)
      = ∑ k : Fin 1024, a (ix2 p k) * b (ix2 o k) := by
  simp only [matmul]
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p o) ((ValueIdx.contrEquiv1 dot_S512x1024_S1024x1024_S512x1024_1_1_0_0_n_n 1024 rfl rfl).symm k) = ix2 p k := funext fun a => Fin.ext (by
    match a with
    | ⟨0, _⟩ => exact lhs512_0 _ _
    | ⟨1, _⟩ => exact (lhs512_1 _ _).trans hk)
  have er : dot_S512x1024_S1024x1024_S512x1024_1_1_0_0_n_n.rhsIdx (ix2 p o) ((ValueIdx.contrEquiv1 dot_S512x1024_S1024x1024_S512x1024_1_1_0_0_n_n 1024 rfl rfl).symm k) = ix2 o k := funext fun a => Fin.ext (by
    match a with
    | ⟨0, _⟩ => exact rhs512_0 _ _
    | ⟨1, _⟩ => exact (rhs512_1 _ _).trans hk)
  rw [el, er]

theorem lhs256_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem lhs256_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem rhs256_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rhs256_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- The [256,1024] × [1024,1024]ᵀ product into a zero accumulator, at row `r`, column `j`. -/
theorem matmul256_apply (a : FVec Ideal S256x1024 .bf16) (b : FVec Ideal S1024x1024 .bf16) (r : Fin 256) (j : Fin 1024) :
    matmul dot_S256x1024_S1024x1024_S256x1024_1_1_0_0_n_n none a b (constant (F := Ideal) S256x1024 .f32 0x00000000#32) (ix2 r j)
      = ∑ k : Fin 1024, a (ix2 r k) * b (ix2 j k) := by
  simp only [matmul]
  rw [Ideal.matmul_constant_zero_apply, ← Equiv.sum_comp (ValueIdx.contrEquiv1 dot_S256x1024_S1024x1024_S256x1024_1_1_0_0_n_n 1024 rfl rfl).symm]
  refine Finset.sum_congr rfl fun k _ => ?_
  have hk := ValueIdx.contrEquiv1_symm_val dot_S256x1024_S1024x1024_S256x1024_1_1_0_0_n_n 1024 rfl rfl k
  have el : dot_S256x1024_S1024x1024_S256x1024_1_1_0_0_n_n.lhsIdx (ix2 r j) ((ValueIdx.contrEquiv1 dot_S256x1024_S1024x1024_S256x1024_1_1_0_0_n_n 1024 rfl rfl).symm k) = ix2 r k := funext fun a => Fin.ext (by
    match a with
    | ⟨0, _⟩ => exact lhs256_0 _ _
    | ⟨1, _⟩ => exact (lhs256_1 _ _).trans hk)
  have er : dot_S256x1024_S1024x1024_S256x1024_1_1_0_0_n_n.rhsIdx (ix2 r j) ((ValueIdx.contrEquiv1 dot_S256x1024_S1024x1024_S256x1024_1_1_0_0_n_n 1024 rfl rfl).symm k) = ix2 j k := funext fun a => Fin.ext (by
    match a with
    | ⟨0, _⟩ => exact rhs256_0 _ _
    | ⟨1, _⟩ => exact (rhs256_1 _ _).trans hk)
  rw [el, er]

/-! ## Layout operations of the small shapes, read at an index -/

/-- A [256] vector recast as a [256,1] column. -/
theorem col_apply (v : FVec Ideal S256 .f32) (r : Fin 256) :
    shapeCast S256x1 v shapeCasts_S256_S256x1 (ix2 r (0 : Fin 1)) = v (ix1 r) := by
  refine shapeCast_apply v shapeCasts_S256_S256x1 (ix2 r (0 : Fin 1)) (ix1 r) ?_
  rw [Shape.rowMajor_val_two, Shape.rowMajor_val_one]; show r.val = r.val * 1 + 0; omega

/-- A [256,1] column broadcast along 1024 columns. -/
theorem bcol_apply (v : FVec Ideal S256x1 .f32) (r : Fin 256) (j : Fin 1024) :
    broadcastTo S256x1024 v broadcasts_S256x1_S256x1024 (ix2 r j) = v (ix2 r (0 : Fin 1)) := by
  refine broadcastTo_apply v broadcasts_S256x1_S256x1024 (ix2 r j) (ix2 r (0 : Fin 1)) fun ax => ?_
  match ax with
  | ⟨0, _⟩ => rfl
  | ⟨1, _⟩ => rfl

/-- A [1,1024] row broadcast down 512 rows. -/
theorem brow_apply (v : FVec Ideal S1x1024 .f32) (p : Fin 512) (o : Fin 1024) :
    broadcastTo S512x1024 v broadcasts_S1x1024_S512x1024 (ix2 p o) = v (ix2 (0 : Fin 1) o) := by
  exact broadcastTo_1b_ab_apply v broadcasts_S1x1024_S512x1024 p o

/-! ## The projection kernel's stored value -/

/-- Row `p`, column `o` of the stored block: history row `p` against weight row `o`, plus bias `o`. -/
theorem pay1_apply (x0 : FVec Ideal S512x1024 .f32) (x1 : FVec Ideal S1024x1024 .bf16) (x2 : FVec Ideal S1x1024 .f32) (p : Fin 512) (o : Fin 1024) :
    k0_pay1 (F := Ideal) x0 x1 x2 (ix2 p o) = (∑ k : Fin 1024, x0 (ix2 p k) * x1 (ix2 o k)) + x2 (ix2 (0 : Fin 1) o) := by
  unfold k0_pay1
  show (matmul (F := Ideal) dot_S512x1024_S1024x1024_S512x1024_1_1_0_0_n_n none (truncf (F := Ideal) .bf16 x0 bitsLt_bf16_f32) (shapeCast S1024x1024 x1 shapeCasts_S1024x1024_S1024x1024) (constant (F := Ideal) S512x1024 .f32 0x00000000#32)) (ix2 p o)
    + (broadcastTo S512x1024 (shapeCast S1x1024 x2 shapeCasts_S1x1024_S1x1024) broadcasts_S1x1024_S512x1024) (ix2 p o) = _
  rw [shapeCast_self, shapeCast_self, matmul512_apply, brow_apply]
  rfl

/-! ## The energies kernel's values -/

/-- A chunk of scores: query row `r` against the chunk's row `j`. -/
theorem pay2_apply (v0 : FVec Ideal S256x1024 .bf16) (v14 : FVec Ideal S1024x1024 .bf16) (r : Fin 256) (j : Fin 1024) :
    k1_pay2 (F := Ideal) v0 v14 (ix2 r j) = ∑ d : Fin 1024, v0 (ix2 r d) * v14 (ix2 j d) := by
  unfold k1_pay2
  show (matmul (F := Ideal) dot_S256x1024_S1024x1024_S256x1024_1_1_0_0_n_n none (shapeCast S256x1024 v0 shapeCasts_S256x1024_S256x1024) (shapeCast S1024x1024 v14 shapeCasts_S1024x1024_S1024x1024) (constant (F := Ideal) S256x1024 .f32 0x00000000#32)) (ix2 r j) = _
  rw [shapeCast_self, shapeCast_self, matmul256_apply]

/-- The lifted index of a row reduction of a [256,1024] block is (row, column). -/
theorem lift_row (r : Fin 256) (k : Fin 1024) : reduces_S256x1024_S256.lift (ix1 r) k = ix2 r k :=
  funext fun a => Fin.ext (by match a with | ⟨0, _⟩ => rfl | ⟨1, _⟩ => rfl)

/-- The maximum's starting value. -/
theorem pay1'_apply (r : Fin 256) : k1_pay1 (F := Ideal) (ix2 r (0 : Fin 1)) = ninf := rfl
/-- The sum's starting value. -/
theorem pay4_apply (r : Fin 256) : k1_pay4 (F := Ideal) (ix2 r (0 : Fin 1)) = 0 := by
  show Ideal.ofBits .f32 0x00000000#32 = 0
  exact Ideal.ofBits_zero_f32

/-- The running maximum joined with the chunk's row maximum. -/
theorem pay3_apply (v0 : FVec Ideal S256x1024 .bf16) (arg5 : FVec Ideal S256x1 .f32) (v14 : FVec Ideal S1024x1024 .bf16) (r : Fin 256) :
    k1_pay3 (F := Ideal) v0 arg5 v14 (ix2 r (0 : Fin 1))
      = max (arg5 (ix2 r (0 : Fin 1))) (Finset.univ.fold max ninf fun j : Fin 1024 => k1_pay2 (F := Ideal) v0 v14 (ix2 r j)) := by
  unfold k1_pay3
  show max (arg5 (ix2 r (0 : Fin 1))) (shapeCast S256x1 (multiReduction (F := Ideal) .maximumf [1] S256 (k1_pay2 (F := Ideal) v0 v14) 0xFF800000#32 reduces_S256x1024_S256 (.inl rfl) rfl) shapeCasts_S256_S256x1 (ix2 r (0 : Fin 1))) = _
  rw [col_apply]
  refine congrArg (max _) ((Ideal.multiReduction_maximumf_single (k1_pay2 (F := Ideal) v0 v14) 0xFF800000#32 reduces_S256x1024_S256 (.inl rfl) rfl (ix1 r)).trans ?_)
  show (Finset.univ.fold max ninf fun k : Fin 1024 => k1_pay2 (F := Ideal) v0 v14 (reduces_S256x1024_S256.lift (ix1 r) k)) = _
  simp only [lift_row]

/-- The exponential of a score minus its row's maximum. -/
theorem pay5_apply (v4 : FVec Ideal S256x1 .f32) (v14 : FVec Ideal S256x1024 .f32) (r : Fin 256) (j : Fin 1024) :
    k1_pay5 (F := Ideal) v4 v14 (ix2 r j) = Ideal.exp (v14 (ix2 r j) - v4 (ix2 r (0 : Fin 1))) := by
  unfold k1_pay5
  show Ideal.exp ((shapeCast S256x1024 v14 shapeCasts_S256x1024_S256x1024) (ix2 r j) - (broadcastTo S256x1024 v4 broadcasts_S256x1_S256x1024) (ix2 r j)) = _
  rw [shapeCast_self, bcol_apply]

/-- The running sum plus the chunk's row sum of exponentials. -/
theorem pay6_apply (v4 arg5 : FVec Ideal S256x1 .f32) (v14 : FVec Ideal S256x1024 .f32) (r : Fin 256) :
    k1_pay6 (F := Ideal) v4 arg5 v14 (ix2 r (0 : Fin 1))
      = arg5 (ix2 r (0 : Fin 1)) + ∑ j : Fin 1024, k1_pay5 (F := Ideal) v4 v14 (ix2 r j) := by
  unfold k1_pay6
  show arg5 (ix2 r (0 : Fin 1)) + (shapeCast S256x1 (multiReduction (F := Ideal) .add [1] S256 (k1_pay5 (F := Ideal) v4 v14) 0x00000000#32 reduces_S256x1024_S256 (.inl rfl) rfl) shapeCasts_S256_S256x1 (ix2 r (0 : Fin 1))) = _
  rw [col_apply]
  refine congrArg (_ + ·) ((Ideal.multiReduction_add_single (k1_pay5 (F := Ideal) v4 v14) 0x00000000#32 reduces_S256x1024_S256 (.inl rfl) rfl (ix1 r)).trans ?_)
  show (∑ k : Fin 1024, k1_pay5 (F := Ideal) v4 v14 (reduces_S256x1024_S256.lift (ix1 r) k)) = _
  simp only [lift_row]

/-- An exponential times the reciprocal of its row's total. -/
theorem pay7_apply (v7 : FVec Ideal S256x1 .f32) (v14 : FVec Ideal S256x1024 .f32) (r : Fin 256) (j : Fin 1024) :
    k1_pay7 (F := Ideal) v7 v14 (ix2 r j) = v14 (ix2 r j) * Ideal.div one (v7 (ix2 r (0 : Fin 1))) := by
  unfold k1_pay7
  show (shapeCast S256x1024 v14 shapeCasts_S256x1024_S256x1024) (ix2 r j) * (broadcastTo S256x1024 (divf (F := Ideal) (broadcast S256x1 (Scalar.ofBits (F := Ideal) .f32 0x3F800000#32)) v7) broadcasts_S256x1_S256x1024) (ix2 r j) = _
  rw [shapeCast_self, bcol_apply]
  rfl

end Cert.KernelIdeal.Pay

end
-- ==== Proof.ProjArray.lean ====
/-
  What the projection kernel leaves in its result array, and what the energies kernel finds in its two inputs.

  The projection kernel runs on a grid of 16 points.  At point t it reads rows 512 t … 512 t + 511 of the history
  array, the whole weight matrix and the whole bias row, and stores one [512, 1024] block: entry (p, o) is history
  row 512 t + p contracted with weight row o, plus bias entry o.  That block is written back to rows
  512 t … 512 t + 511 of the result array.  So every point writes its block of ONE function of the three arrays
  (projOf), the sixteen blocks cover the array (row r lies in the block of point r / 512), and the array ends
  holding that function.

  On the host side: the weight matrix reaches the kernel through a conversion that is the identity on extended
  reals, the bias through a reshape [1024] → [1, 1024], and the query array of the second kernel through the same
  conversion; no host operation writes the history array or the projection's result.  Read back through them, the
  second kernel's projected-history input is the specification's affine image of the launch arrays.
-/
import proofs.«404621_j31241592111494_3_alg».proof.Proof.FrameKernelIdeal
import proofs.«404621_j31241592111494_3_alg».proof.Proof.KernelPayloads
import proofs.«404621_j31241592111494_3_alg».proof.Proof.Attention
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.ProjArray

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

/-- the projected history as one function of the three arrays the region reads -/
def projOf (h : S8192x1024.Idx → EReal) (W : S1024x1024.Idx → EReal) (b2 : S1x1024.Idx → EReal) : S8192x1024.Idx → EReal :=
  fun i => (∑ k : Fin 1024, h (ix2 (i 0) k) * W (ix2 (i 1) k)) + b2 (ix2 (0 : Fin 1) (i 1))

/-! ## The grid's index maps -/

theorem zero_offsets : (![0, 0] : Fin 2 → Nat) = fun _ => 0 := funext fun a => by fin_cases a <;> rfl

/-- The printed index maps, decided over the 16 points: the history window and the result window are at block row
    t, column 0; the weight window and the bias window stay at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section Region

variable (V : (c : Dev nD) → (b : Ref sig .tc) → Buf (Elt Ideal) ((c : Thread nD τ).loc b))

/-! ## The three input blocks at a point, as entries of their arrays -/

/-- The history block at point t is rows 512 t … 512 t + 511 of the history array. -/
theorem hist_block_apply (c : Dev nD) (t : Fin cfg0.N) (x : S512x1024.Idx) (k : S8192x1024.Idx)
    (hk0 : (k 0).val = 512 * t.val + (x 0).val) (hk1 : (k 1).val = (x 1).val) :
    (iblk0 (F := Ideal) V c 0 t : Vec Ideal S512x1024 .f32) x = (V c main_arg1 : S8192x1024.Idx → EReal) k := by
  obtain ⟨e0, e1, -⟩ := index_facts t
  unfold iblk0
  rw [View.read_apply]
  show (V c main_arg1 : S8192x1024.Idx → EReal) _ = (V c main_arg1 : S8192x1024.Idx → EReal) k
  congr 1
  funext a
  apply Fin.ext
  match a with
  | ⟨0, _⟩ => show win0_0.index t (0 : Fin 2) * 512 + 1 * (x 0).val = (k 0).val; omega
  | ⟨1, _⟩ => show win0_0.index t (1 : Fin 2) * 1024 + 1 * (x 1).val = (k 1).val; omega

/-- The weight block at every point is the whole weight matrix. -/
theorem weights_block_apply (c : Dev nD) (t : Fin cfg0.N) (x : S1024x1024.Idx) (k : S1024x1024.Idx)
    (hk0 : (k 0).val = (x 0).val) (hk1 : (k 1).val = (x 1).val) :
    (iblk0 (F := Ideal) V c 1 t : Vec Ideal S1024x1024 .bf16) x = (V c main_v0 : S1024x1024.Idx → EReal) k := by
  obtain ⟨-, -, e2, e3, -⟩ := index_facts t
  unfold iblk0
  rw [View.read_apply]
  show (V c main_v0 : S1024x1024.Idx → EReal) _ = (V c main_v0 : S1024x1024.Idx → EReal) k
  congr 1
  funext a
  apply Fin.ext
  match a with
  | ⟨0, _⟩ => show win0_1.index t (0 : Fin 2) * 1024 + 1 * (x 0).val = (k 0).val; omega
  | ⟨1, _⟩ => show win0_1.index t (1 : Fin 2) * 1024 + 1 * (x 1).val = (k 1).val; omega

/-- The bias block at every point is the whole bias row. -/
theorem bias_block_apply (c : Dev nD) (t : Fin cfg0.N) (x : S1x1024.Idx) (k : S1x1024.Idx)
    (hk0 : (k 0).val = (x 0).val) (hk1 : (k 1).val = (x 1).val) :
    (iblk0 (F := Ideal) V c 2 t : Vec Ideal S1x1024 .f32) x = (V c main_v1 : S1x1024.Idx → EReal) k := by
  obtain ⟨-, -, -, -, e4, e5, -⟩ := index_facts t
  unfold iblk0
  rw [View.read_apply]
  show (V c main_v1 : S1x1024.Idx → EReal) _ = (V c main_v1 : S1x1024.Idx → EReal) k
  congr 1
  funext a
  apply Fin.ext
  match a with
  | ⟨0, _⟩ => show win0_2.index t (0 : Fin 2) * 1 + 1 * (x 0).val = (k 0).val; omega
  | ⟨1, _⟩ => show win0_2.index t (1 : Fin 2) * 1024 + 1 * (x 1).val = (k 1).val; omega

/-! ## What a point stores, and what it writes back -/

/-- Entry (p, o) of the block point t stores is the projected history at row 512 t + p, column o. -/
theorem stored_apply (c : Dev nD) (t : Fin cfg0.N) (p : Fin 512) (o : Fin 1024) (i : S8192x1024.Idx)
    (hi0 : (i 0).val = 512 * t.val + p.val) (hi1 : (i 1).val = o.val) :
    k0_pay1 (F := Ideal) (iblk0 V c 0 t) (iblk0 V c 1 t) (iblk0 V c 2 t) (ix2 p o)
      = projOf (V c main_arg1) (V c main_v0) (V c main_v1) i := by
  refine (Cert.KernelIdeal.Pay.pay1_apply _ _ _ p o).trans ?_
  exact congrArg₂ (fun a b : EReal => a + b)
    (Finset.sum_congr rfl fun k _ => congrArg₂ (fun a b : EReal => a * b)
      (hist_block_apply V c t (ix2 p k) (ix2 (i 0) k) hi0 rfl)
      (weights_block_apply V c t (ix2 o k) (ix2 (i 1) k) hi1 rfl))
    (bias_block_apply V c t (ix2 (0 : Fin 1) o) (ix2 (0 : Fin 1) (i 1)) rfl hi1)

/-- WHAT POINT t WRITES BACK is block t of the projected history of the arrays as the region finds them. -/
theorem flushed_eq (c : Dev nD) (t : Fin cfg0.N) :
    (dat0 (F := Ideal) V c).flushed 3 t
      = ((cfg0.win 3).blk t).view.read (Elt Ideal) (projOf (V c main_arg1) (V c main_v0) (V c main_v1)) := by
  show (cfg0.win 3).cut (grid0.coords t) ((dat0 (F := Ideal) V c).after 3 t) = _
  rw [after0_3]
  unfold out0_3
  rw [View.canon_unit_zero zero_offsets]
  simp only [View.ld_unit_zero (S := S512x1024) zero_offsets, View.ld_unit_zero (S := S1024x1024) zero_offsets,
    View.ld_unit_zero (S := S1x1024) zero_offsets]
  obtain ⟨-, -, -, -, -, -, e6, e7⟩ := index_facts t
  funext j
  obtain ⟨p, o, rfl⟩ : ∃ (p : Fin 512) (o : Fin 1024), j = ix2 p o := ⟨j 0, j 1, eq_ix2 j⟩
  rw [View.read_apply]
  show k0_pay1 (F := Ideal) (iblk0 V c 0 t) (iblk0 V c 1 t) (iblk0 V c 2 t) (ix2 p o)
      = projOf (V c main_arg1) (V c main_v0) (V c main_v1) (((cfg0.win 3).blk t).view.emb (ix2 p o))
  refine stored_apply V c t p o _ ?_ ?_
  · show win0_3.index t (0 : Fin 2) * 512 + 1 * p.val = 512 * t.val + p.val; omega
  · show win0_3.index t (1 : Fin 2) * 1024 + 1 * o.val = o.val; omega

/-! ## The blocks cover the array -/

/-- An index of the array is in point t's block iff each coordinate is in the block's range on its axis. -/
theorem mem_block (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v2).slice (win0_3.rect t)).set ↔ _
  rw [View.set_slice_whole, Rect.mem_set_unit]
  exact Iff.rfl

/-- Row r of the array lies in the block of point r / 512, and every point writes back. -/
theorem cover (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 16 := N_0
  let t : Fin cfg0.N := ⟨(i 0).val / 512, by rw [hN]; omega⟩
  refine ⟨t, flush0_3 t, ?_⟩
  obtain ⟨-, -, -, -, -, -, e6, e7⟩ := index_facts t
  have ht : t.val = (i 0).val / 512 := rfl
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE ARRAY after the region: the projected history of the arrays as the region finds them. -/
theorem proj_final (c : Dev nD) :
    (dat0 (F := Ideal) V c).arrAt 3 cfg0.N = projOf (V c main_arg1) (V c main_v0) (V c main_v1) :=
  (dat0 (F := Ideal) V c).arrAt_eq_of_cover 3 (projOf (V c main_arg1) (V c main_v0) (V c main_v1))
    (fun t _ => flushed_eq V c t) cover

end Region

/-! ## The host side: the run's own boundary contents -/

section Host

variable (m : (ℓ : Loc nD τ sig) → Buf (Elt Ideal) ℓ) (ρ : Dev nD → PrngReg) (c : Dev nD)

/-- The first stretch of host operations (a conversion of the weights, a reshape of the bias), from any contents:
    the history array untouched, the converted weights the weights, the reshaped bias the bias as one row. -/
theorem hostOps0_weights (X : Valuation τ sig (Elt Ideal)) :
    (StableHlo.after (hostOps0 (F := Ideal)) X (Proc.devRef .tc main_v0) : S1024x1024.Idx → EReal)
      = X (Proc.devRef .tc main_arg2) := by
  dsimp only [hostOps0]
  after_results
  rfl

theorem hostOps0_bias (X : Valuation τ sig (Elt Ideal)) :
    (StableHlo.after (hostOps0 (F := Ideal)) X (Proc.devRef .tc main_v1) : S1x1024.Idx → EReal)
      = shapeCast S1x1024 (X (Proc.devRef .tc main_arg3) : S1024.Idx → EReal) shapeCasts_S1024_S1x1024 := by
  dsimp only [hostOps0]
  after_results
  rfl

/-- The second stretch (a conversion of the query array), from any contents. -/
theorem hostOps1_query (X : Valuation τ sig (Elt Ideal)) :
    (StableHlo.after (hostOps1 (F := Ideal)) X (Proc.devRef .tc main_v3) : S8192x1024.Idx → EReal)
      = X (Proc.devRef .tc main_arg0) := by
  dsimp only [hostOps1]
  after_results
  rfl

theorem V1_hist : V1 (F := Ideal) m ρ c main_arg1 = m ((c : Thread nD τ).loc main_arg1) :=
  calc V1 (F := Ideal) m ρ c main_arg1
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem V1_weights : V1 (F := Ideal) m ρ c main_v0 = m ((c : Thread nD τ).loc main_arg2) :=
  (hostOps0_weights (W0 m ρ c)).trans rfl

theorem V1_bias (o : Fin 1024) :
    V1 (F := Ideal) m ρ c main_v1 (ix2 (0 : Fin 1) o) = m ((c : Thread nD τ).loc main_arg3) (ix1 o) :=
  (congrFun (hostOps0_bias (W0 m ρ c)) (ix2 (0 : Fin 1) o)).trans
    (shapeCast_a_1a_apply (W0 m ρ c (Proc.devRef .tc main_arg3) : S1024.Idx → EReal) shapeCasts_S1024_S1x1024 (0 : Fin 1) o)

theorem V3_query : V3 (F := Ideal) m ρ c main_v3 = m ((c : Thread nD τ).loc main_arg0) :=
  calc V3 (F := Ideal) m ρ c main_v3
    _ = W2 m ρ c (Proc.devRef .tc main_arg0) := hostOps1_query (W2 m ρ c)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem V3_proj : V3 (F := Ideal) m ρ c main_v2 = (dat0 (F := Ideal) (V1 m ρ) c).arrAt 3 cfg0.N :=
  calc V3 (F := Ideal) m ρ c main_v2
    _ = W2 m ρ c (Proc.devRef .tc main_v2) := StableHlo.after_of_forall_not_mem (b := Proc.devRef .tc main_v2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (F := Ideal) (V1 m ρ) c).arrAt 3 cfg0.N := W2_arr m ρ c 3

/-- The region's function of three arrays is the specification's affine image, the bias read as a vector. -/
theorem projOf_eq_proj {h h' : S8192x1024.Idx → EReal} {W W' : S1024x1024.Idx → EReal} {b2 : S1x1024.Idx → EReal}
    {b : S1024.Idx → EReal} (eh : h = h') (eW : W = W') (hb : ∀ o : Fin 1024, b2 (ix2 (0 : Fin 1) o) = b (ix1 o)) :
    projOf h W b2 = fun i => Cert.Attn.proj h' W' b (i 0) (i 1) := by
  subst eh eW
  funext i
  show (∑ k : Fin 1024, h (ix2 (i 0) k) * W (ix2 (i 1) k)) + b2 (ix2 (0 : Fin 1) (i 1))
      = (∑ k : Fin 1024, h (ix2 (i 0) k) * W (ix2 (i 1) k)) + b (ix1 (i 1))
  exact congrArg (fun z : EReal => (∑ k : Fin 1024, h (ix2 (i 0) k) * W (ix2 (i 1) k)) + z) (hb (i 1))

/-- region 1's second input array is the specification's projected history -/
theorem V3_proj_spec : V3 (F := Ideal) m ρ c main_v2 = fun i => Cert.Attn.proj (m ((c : Thread nD τ).loc main_arg1)) (m ((c : Thread nD τ).loc main_arg2)) (m ((c : Thread nD τ).loc main_arg3)) (i 0) (i 1) :=
  (V3_proj m ρ c).trans ((proj_final (V1 m ρ) c).trans
    (projOf_eq_proj (V1_hist m ρ c) (V1_weights m ρ c) (V1_bias m ρ c)))

end Host

end Cert.KernelIdeal.ProjArray

end
-- ==== Proof.EnergiesLoops.lean ====
/-
  The energies kernel's three loops over the eight chunks of 1024 columns, each read as a function of the buffer's index.

  The first loop stores, chunk by chunk, the scores of the block's 256 query rows against the chunk's projected rows,
  and carries each row's running maximum.  The second replaces each chunk by the exponentials of its entries minus the
  row's maximum, and carries each row's running sum of them.  The third scales each chunk by the reciprocal of the row's
  total.  Each loop's stores are through the rectangle of columns [1024 k, 1024 k + 1024), so the stores of the first
  `k` trips leave the first `k` chunks at the new values and the other columns as they were: the invariants below, by
  induction on the trip, each trip's one store and carried value opened once.
-/
import proofs.«404621_j31241592111494_3_alg».proof.Proof.Gen.KernelIdeal.Loops
import proofs.«404621_j31241592111494_3_alg».proof.Proof.KernelPayloads
import proofs.«404621_j31241592111494_3_alg».proof.Proof.Attention
import Idealize.ShloMosaic.Lib.Pipeline.Value
import Idealize.ShloMosaic.Lib.ValueIdx
import Idealize.ShloMosaic.Lib.WritesUnit
import Idealize.ShloMosaic.PureOps.Ideal.Laws

noncomputable section

open scoped BigOperators

namespace Cert.KernelIdeal.Energies

open Cert.KernelIdeal Cert.KernelIdeal.Gen Cert.KernelIdeal.Pay Cert.Attn
open Idealize.ShloMosaic Idealize.ShloMosaic.ValueIdx Idealize.SL.Sem

/-- The scores of a block of 256 query rows against all 8192 projected rows. -/
def sc (x0 : FVec Ideal S256x1024 .bf16) (P : S8192x1024.Idx → EReal) (r : Fin 256) (s : Fin 8192) : EReal :=
  ∑ d : Fin 1024, x0 (ix2 r d) * P (ix2 s d)

/-- The chunked softmax of one row: the exponential of the entry minus the row's running maximum after all eight
    chunks, times the reciprocal of the running sum after all eight. -/
def softRow (y : Fin 8192 → EReal) (s : Fin 8192) : EReal :=
  Ideal.exp (y s - kMax y 8) * Ideal.div one (kSum y (kMax y 8) 8)

theorem kerSoft_eq_softRow (x : Fin 8192 → Fin 8192 → EReal) (q s : Fin 8192) : kerSoft x q s = softRow (x q) s := rfl

variable (𝒱 : Variants) (c : Dev nD) (bd : Option 𝒱.V) (i : grid1.Coords)
  (arg1 : Memref sig .tc .vmem S256x1024 .bf16) (harg1 : arg1.IsWhole)
  (arg2 : Memref sig .tc .vmem S8192x1024 .bf16) (harg2 : arg2.IsWhole)
  (arg3 : Memref sig .tc .vmem S256x8192 .f32) (harg3 : arg3.IsWhole)

theorem trips1 : k1_t1_loop.trips = 8 := by decide +kernel
theorem trips2 : k1_t2_loop.trips = 8 := by decide +kernel
theorem trips3 : k1_t3_loop.trips = 8 := by decide +kernel

/-! ## One trip of each loop: its one store and what it yields -/

theorem tripL1_eq (v0 : Vec Ideal S256x1024 .bf16) (X : BufTy.Contents (Elt Ideal) arg2.view.ty) (k : Fin k1_t1_loop.trips) (acc : FVec Ideal S256x1 .f32) :
    tripL_k1_t1 (F := Ideal) 𝒱 c bd i arg1 harg1 arg2 harg2 arg3 harg3 v0 X k acc
      = [⟨Rect.unit (s := S256x8192) (k1_off2 k) S256x1024.size (k1_off2_inb k),
          k1_pay2 (F := Ideal) v0 (arg2.view.readAt (Elt Ideal) (Rect.unit (s := S8192x1024) (k1_off1 k) S1024x1024.size (k1_off1_inb k)).toLoadRect X)⟩] := by
  unfold tripL_k1_t1 trip_k1_t1; rfl

theorem tripR1_eq (v0 : Vec Ideal S256x1024 .bf16) (X : BufTy.Contents (Elt Ideal) arg2.view.ty) (k : Fin k1_t1_loop.trips) (acc : FVec Ideal S256x1 .f32) :
    tripR_k1_t1 (F := Ideal) 𝒱 c bd i arg1 harg1 arg2 harg2 arg3 harg3 v0 X k acc
      = k1_pay3 (F := Ideal) v0 acc (arg2.view.readAt (Elt Ideal) (Rect.unit (s := S8192x1024) (k1_off1 k) S1024x1024.size (k1_off1_inb k)).toLoadRect X) := by
  unfold tripR_k1_t1 trip_k1_t1; rfl

theorem tripL2_eq (v4 : FVec Ideal S256x1 .f32) (k : Fin k1_t2_loop.trips) (acc : FVec Ideal S256x1 .f32) (f : BufTy.Contents (Elt Ideal) arg3.view.ty) :
    tripL_k1_t2 (F := Ideal) 𝒱 c bd i arg1 harg1 arg2 harg2 arg3 harg3 v4 k acc f
      = [⟨Rect.unit (s := S256x8192) (k1_off3 k) S256x1024.size (k1_off3_inb k),
          k1_pay5 (F := Ideal) v4 (arg3.view.readAt (Elt Ideal) (Rect.unit (s := S256x8192) (k1_off3 k) S256x1024.size (k1_off3_inb k)).toLoadRect f)⟩] := by
  unfold tripL_k1_t2 trip_k1_t2; rfl

theorem tripR2_eq (v4 : FVec Ideal S256x1 .f32) (k : Fin k1_t2_loop.trips) (acc : FVec Ideal S256x1 .f32) (f : BufTy.Contents (Elt Ideal) arg3.view.ty) :
    tripR_k1_t2 (F := Ideal) 𝒱 c bd i arg1 harg1 arg2 harg2 arg3 harg3 v4 k acc f
      = k1_pay6 (F := Ideal) v4 acc (arg3.view.readAt (Elt Ideal) (Rect.unit (s := S256x8192) (k1_off3 k) S256x1024.size (k1_off3_inb k)).toLoadRect f) := by
  unfold tripR_k1_t2 trip_k1_t2; rfl

theorem tripL3_eq (v7 : FVec Ideal S256x1 .f32) (k : Fin k1_t3_loop.trips) (f : BufTy.Contents (Elt Ideal) arg3.view.ty) :
    tripL_k1_t3 (F := Ideal) 𝒱 c bd i arg1 harg1 arg2 harg2 arg3 harg3 v7 k f
      = [⟨Rect.unit (s := S256x8192) (k1_off4 k) S256x1024.size (k1_off4_inb k),
          k1_pay7 (F := Ideal) v7 (arg3.view.readAt (Elt Ideal) (Rect.unit (s := S256x8192) (k1_off4 k) S256x1024.size (k1_off4_inb k)).toLoadRect f)⟩] := by
  unfold tripL_k1_t3 trip_k1_t3; rfl

/-! ## Reading through a list whose newest store is one chunk of columns -/

/-- Column `j` of chunk `k`, for one of the eight chunks. -/
theorem chunkIdx_val {k : ℕ} (hk : k < 8) (j : Fin 1024) : (chunkIdx k j).val = 1024 * k + j.val := by
  show (1024 * k + j.val) % 8192 = _
  have := j.isLt
  omega

/-- The newest store being the [256,1024] block at columns [1024 k, 1024 k + 1024): an entry in those columns reads
    the block's payload at its position, any other entry what the earlier stores left. -/
theorem read_chunk_cons (v : View sig .tc .vmem S256x8192 .f32) (f : v.ty.Contents (Elt Ideal)) {off : Fin 2 → ℕ} (k : ℕ)
    (hoff : off = ![0, 1024 * k]) (inb : ∀ a, off a + S256x1024.size a ≤ S256x8192.size a) (w : S256x1024.Idx → EReal)
    (L : List (View.Piece (Elt Ideal) S256x8192 .f32)) (r : Fin 256) (s : Fin 8192) :
    v.read (Elt Ideal) (v.writes (Elt Ideal) f ((⟨Rect.unit (s := S256x8192) off S256x1024.size inb, w⟩ : View.Piece (Elt Ideal) S256x8192 .f32) :: L)) (ix2 r s)
      = if h : 1024 * k ≤ s.val ∧ s.val < 1024 * k + 1024 then w (ix2 r ⟨s.val - 1024 * k, by omega⟩)
        else v.read (Elt Ideal) (v.writes (Elt Ideal) f L) (ix2 r s) := by
  by_cases h : 1024 * k ≤ s.val ∧ s.val < 1024 * k + 1024
  · rw [dif_pos h]
    exact View.read_writes_cons_unit_of_mem v f inb w L (ix2 r s) (ix2 r ⟨s.val - 1024 * k, by omega⟩) hoff
      (fun a => match a with
        | ⟨0, _⟩ => (by show r.val = 0 + r.val; omega)
        | ⟨1, _⟩ => (by show s.val = 1024 * k + (s.val - 1024 * k); omega))
  · rw [dif_neg h]
    exact View.read_writes_cons_unit_of_not_mem v f inb w L (ix2 r s) hoff (1 : Fin 2)
      (by show s.val < 1024 * k ∨ 1024 * k + 1024 ≤ s.val; omega)

/-- One more chunk stored: if the entries of the first `k` chunks read `g` and the others `old`, and the new block holds
    `g` on chunk `k`, then the entries of the first `k + 1` chunks read `g` and the others `old`. -/
theorem read_chunk_step (v : View sig .tc .vmem S256x8192 .f32) (f : v.ty.Contents (Elt Ideal)) {off : Fin 2 → ℕ} (k : ℕ) (hk : k < 8)
    (hoff : off = ![0, 1024 * k]) (inb : ∀ a, off a + S256x1024.size a ≤ S256x8192.size a) (w : S256x1024.Idx → EReal)
    (L : List (View.Piece (Elt Ideal) S256x8192 .f32)) (r : Fin 256) (s : Fin 8192) (g : Fin 8192 → EReal) (old : EReal)
    (hw : ∀ j : Fin 1024, w (ix2 r j) = g (chunkIdx k j))
    (ih : v.read (Elt Ideal) (v.writes (Elt Ideal) f L) (ix2 r s) = if s.val < 1024 * k then g s else old) :
    v.read (Elt Ideal) (v.writes (Elt Ideal) f ((⟨Rect.unit (s := S256x8192) off S256x1024.size inb, w⟩ : View.Piece (Elt Ideal) S256x8192 .f32) :: L)) (ix2 r s)
      = if s.val < 1024 * (k + 1) then g s else old := by
  rw [read_chunk_cons v f k hoff inb w L r s]
  by_cases h : 1024 * k ≤ s.val ∧ s.val < 1024 * k + 1024
  · rw [dif_pos h, if_pos (by omega), hw]
    exact congrArg g (Fin.ext (by rw [chunkIdx_val hk]; show 1024 * k + (s.val - 1024 * k) = s.val; omega))
  · rw [dif_neg h, ih]
    by_cases h2 : s.val < 1024 * k
    · rw [if_pos h2, if_pos (by omega)]
    · rw [if_neg h2, if_neg (by omega)]

/-- A load of chunk `k` of a [256,8192] buffer, at row `r`, column `j` of the chunk. -/
theorem readAt_chunk (v : View sig .tc .vmem S256x8192 .f32) (f : v.ty.Contents (Elt Ideal)) {off : Fin 2 → ℕ} (k : ℕ) (hk : k < 8)
    (hoff : off = ![0, 1024 * k]) (inb : ∀ a, off a + S256x1024.size a ≤ S256x8192.size a) (r : Fin 256) (j : Fin 1024) :
    v.readAt (Elt Ideal) (Rect.unit (s := S256x8192) off S256x1024.size inb).toLoadRect f (ix2 r j)
      = v.read (Elt Ideal) f (ix2 r (chunkIdx k j)) := by
  subst hoff
  rw [View.readAt_apply]
  refine congrArg (v.read (Elt Ideal) f) (funext fun a => Fin.ext ?_)
  match a with
  | ⟨0, _⟩ => show 0 + 1 * r.val = r.val; omega
  | ⟨1, _⟩ => show 1024 * k + 1 * j.val = (chunkIdx k j).val; rw [chunkIdx_val hk]; omega

/-! ## The first loop: scores stored chunk by chunk, the running maximum carried -/

/-- A chunk of scores is the scores at the chunk's columns. -/
theorem chunk_scores (v0 : FVec Ideal S256x1024 .bf16) (X : BufTy.Contents (Elt Ideal) arg2.view.ty) (k : Fin k1_t1_loop.trips) (r : Fin 256) (j : Fin 1024) :
    k1_pay2 (F := Ideal) v0 (arg2.view.readAt (Elt Ideal) (Rect.unit (s := S8192x1024) (k1_off1 k) S1024x1024.size (k1_off1_inb k)).toLoadRect X) (ix2 r j)
      = sc v0 (arg2.view.read (Elt Ideal) X) r (chunkIdx k.val j) := by
  have hk : k.val < 8 := lt_of_lt_of_eq k.isLt trips1
  rw [pay2_apply]
  unfold sc
  refine Finset.sum_congr rfl fun d _ => congrArg (v0 (ix2 r d) * ·) ?_
  rw [View.readAt_apply]
  refine congrArg (arg2.view.read (Elt Ideal) X) (funext fun a => Fin.ext ?_)
  match a with
  | ⟨0, _⟩ =>
    show (k1_off1 k) 0 + 1 * j.val = (chunkIdx k.val j).val
    rw [k1_off1_eq, chunkIdx_val hk]; show 1024 * k.val + 1 * j.val = _; omega
  | ⟨1, _⟩ =>
    show (k1_off1 k) 1 + 1 * d.val = d.val
    rw [k1_off1_eq]; show 0 + 1 * d.val = d.val; omega

/-- Before trip `k` of the first loop: the carried column holds the running maximum of each row's scores over the
    first `k` chunks, and the stores so far read as the scores on those chunks and leave the other columns alone. -/
theorem loop1_inv (v0 : FVec Ideal S256x1024 .bf16) (X : BufTy.Contents (Elt Ideal) arg2.view.ty) (init : FVec Ideal S256x1 .f32)
    (hinit : ∀ r : Fin 256, init (ix2 r (0 : Fin 1)) = ninf) (k : ℕ) (hk : k ≤ 8) :
    (∀ r : Fin 256, (st_k1_t1 (F := Ideal) 𝒱 c bd i arg1 harg1 arg2 harg2 arg3 harg3 v0 X init k).1 (ix2 r (0 : Fin 1))
        = kMax (sc v0 (arg2.view.read (Elt Ideal) X) r) k)
    ∧ ∀ (v : View sig .tc .vmem S256x8192 .f32) (f : v.ty.Contents (Elt Ideal)) (r : Fin 256) (s : Fin 8192),
        v.read (Elt Ideal) (v.writes (Elt Ideal) f (st_k1_t1 (F := Ideal) 𝒱 c bd i arg1 harg1 arg2 harg2 arg3 harg3 v0 X init k).2) (ix2 r s)
          = if s.val < 1024 * k then sc v0 (arg2.view.read (Elt Ideal) X) r s else v.read (Elt Ideal) f (ix2 r s) := by
  induction k with
  | zero =>
    refine ⟨fun r => ?_, fun v f r s => ?_⟩
    · exact hinit r
    · show v.read (Elt Ideal) (v.writes (Elt Ideal) f []) (ix2 r s) = _
      rw [View.writes_nil, if_neg (by omega)]
  | succ k ih =>
    obtain ⟨ih1, ih2⟩ := ih (by omega)
    have hk' : k < k1_t1_loop.trips := by rw [trips1]; omega
    have hs := st_k1_t1_succ (F := Ideal) 𝒱 c bd i arg1 harg1 arg2 harg2 arg3 harg3 v0 X init ⟨k, hk'⟩
    rw [tripL1_eq, tripR1_eq] at hs
    refine ⟨fun r => ?_, fun v f r s => ?_⟩
    · rw [show k + 1 = (⟨k, hk'⟩ : Fin k1_t1_loop.trips).val + 1 from rfl, hs]
      show k1_pay3 (F := Ideal) v0 _ _ (ix2 r (0 : Fin 1)) = _
      rw [pay3_apply, ih1 r]
      exact congrArg (fun g : Fin 1024 → EReal => max (kMax (sc v0 (arg2.view.read (Elt Ideal) X) r) k) (Finset.univ.fold max ninf g))
        (funext fun j => chunk_scores arg2 v0 X ⟨k, hk'⟩ r j)
    · rw [show k + 1 = (⟨k, hk'⟩ : Fin k1_t1_loop.trips).val + 1 from rfl, hs]
      exact read_chunk_step v f k (by omega) (k1_off2_eq ⟨k, hk'⟩) _ _ _ r s (sc v0 (arg2.view.read (Elt Ideal) X) r) _
        (fun j => chunk_scores arg2 v0 X ⟨k, hk'⟩ r j) (ih2 v f r s)

/-! ## The second loop: each chunk replaced by its exponentials, the running sum carried -/

/-- Before trip `k` of the second loop, from contents `G` and with the maxima `v4`: the carried column holds the running
    sum of each row's exponentials over the first `k` chunks, and the buffer reads as the exponentials on those chunks
    and as `G` on the other columns. -/
theorem loop2_inv (v4 : FVec Ideal S256x1 .f32) (G : BufTy.Contents (Elt Ideal) arg3.view.ty) (init : FVec Ideal S256x1 .f32)
    (hinit : ∀ r : Fin 256, init (ix2 r (0 : Fin 1)) = 0) (k : ℕ) (hk : k ≤ 8) :
    (∀ r : Fin 256, (st_k1_t2 (F := Ideal) 𝒱 c bd i arg1 harg1 arg2 harg2 arg3 harg3 v4 G init k).1 (ix2 r (0 : Fin 1))
        = kSum (fun s => arg3.view.read (Elt Ideal) G (ix2 r s)) (v4 (ix2 r (0 : Fin 1))) k)
    ∧ ∀ (r : Fin 256) (s : Fin 8192),
        arg3.view.read (Elt Ideal) (arg3.view.writes (Elt Ideal) G (st_k1_t2 (F := Ideal) 𝒱 c bd i arg1 harg1 arg2 harg2 arg3 harg3 v4 G init k).2) (ix2 r s)
          = if s.val < 1024 * k then Ideal.exp (arg3.view.read (Elt Ideal) G (ix2 r s) - v4 (ix2 r (0 : Fin 1)))
            else arg3.view.read (Elt Ideal) G (ix2 r s) := by
  induction k with
  | zero =>
    refine ⟨fun r => ?_, fun r s => ?_⟩
    · exact hinit r
    · show arg3.view.read (Elt Ideal) (arg3.view.writes (Elt Ideal) G []) (ix2 r s) = _
      rw [View.writes_nil, if_neg (by omega)]
  | succ k ih =>
    obtain ⟨ih1, ih2⟩ := ih (by omega)
    have hk' : k < k1_t2_loop.trips := by rw [trips2]; omega
    have hs := st_k1_t2_succ (F := Ideal) 𝒱 c bd i arg1 harg1 arg2 harg2 arg3 harg3 v4 G init ⟨k, hk'⟩
    rw [tripL2_eq, tripR2_eq] at hs
    -- what trip k loads: the entry contents on chunk k (the earlier trips wrote other chunks)
    have hload : ∀ (r : Fin 256) (j : Fin 1024),
        arg3.view.readAt (Elt Ideal) (Rect.unit (s := S256x8192) (k1_off3 ⟨k, hk'⟩) S256x1024.size (k1_off3_inb ⟨k, hk'⟩)).toLoadRect
            (arg3.view.writes (Elt Ideal) G (st_k1_t2 (F := Ideal) 𝒱 c bd i arg1 harg1 arg2 harg2 arg3 harg3 v4 G init k).2) (ix2 r j)
          = arg3.view.read (Elt Ideal) G (ix2 r (chunkIdx k j)) := by
      intro r j
      rw [readAt_chunk arg3.view _ k (by omega) (k1_off3_eq ⟨k, hk'⟩) _ r j, ih2 r (chunkIdx k j), if_neg (by rw [chunkIdx_val (by omega)]; omega)]
    have hpay : ∀ (r : Fin 256) (j : Fin 1024),
        k1_pay5 (F := Ideal) v4 (arg3.view.readAt (Elt Ideal) (Rect.unit (s := S256x8192) (k1_off3 ⟨k, hk'⟩) S256x1024.size (k1_off3_inb ⟨k, hk'⟩)).toLoadRect
            (arg3.view.writes (Elt Ideal) G (st_k1_t2 (F := Ideal) 𝒱 c bd i arg1 harg1 arg2 harg2 arg3 harg3 v4 G init k).2)) (ix2 r j)
          = Ideal.exp (arg3.view.read (Elt Ideal) G (ix2 r (chunkIdx k j)) - v4 (ix2 r (0 : Fin 1))) := by
      intro r j
      rw [pay5_apply, hload r j]
    refine ⟨fun r => ?_, fun r s => ?_⟩
    · rw [show k + 1 = (⟨k, hk'⟩ : Fin k1_t2_loop.trips).val + 1 from rfl, hs]
      show k1_pay6 (F := Ideal) v4 _ _ (ix2 r (0 : Fin 1)) = _
      rw [pay6_apply, ih1 r]
      exact congrArg (fun g : Fin 1024 → EReal => kSum (fun s => arg3.view.read (Elt Ideal) G (ix2 r s)) (v4 (ix2 r (0 : Fin 1))) k + ∑ j : Fin 1024, g j)
        (funext fun j => hpay r j)
    · rw [show k + 1 = (⟨k, hk'⟩ : Fin k1_t2_loop.trips).val + 1 from rfl, hs]
      exact read_chunk_step arg3.view G k (by omega) (k1_off3_eq ⟨k, hk'⟩) _ _ _ r s
        (fun s => Ideal.exp (arg3.view.read (Elt Ideal) G (ix2 r s) - v4 (ix2 r (0 : Fin 1)))) _
        (fun j => hpay r j) (ih2 r s)

/-! ## The third loop: each chunk scaled by the reciprocal of its row's total -/

/-- Before trip `k` of the third loop, from contents `G` and with the totals `v7`: the buffer reads as `G` times the
    reciprocal of the row's total on the first `k` chunks and as `G` on the other columns. -/
theorem loop3_inv (v7 : FVec Ideal S256x1 .f32) (G : BufTy.Contents (Elt Ideal) arg3.view.ty) (k : ℕ) (hk : k ≤ 8) :
    ∀ (r : Fin 256) (s : Fin 8192),
        arg3.view.read (Elt Ideal) (arg3.view.writes (Elt Ideal) G (pb_k1_t3 (F := Ideal) 𝒱 c bd i arg1 harg1 arg2 harg2 arg3 harg3 v7 G k)) (ix2 r s)
          = if s.val < 1024 * k then arg3.view.read (Elt Ideal) G (ix2 r s) * Ideal.div one (v7 (ix2 r (0 : Fin 1)))
            else arg3.view.read (Elt Ideal) G (ix2 r s) := by
  induction k with
  | zero =>
    intro r s
    show arg3.view.read (Elt Ideal) (arg3.view.writes (Elt Ideal) G []) (ix2 r s) = _
    rw [View.writes_nil, if_neg (by omega)]
  | succ k ih =>
    have ih2 := ih (by omega)
    have hk' : k < k1_t3_loop.trips := by rw [trips3]; omega
    have hs := pb_k1_t3_succ (F := Ideal) 𝒱 c bd i arg1 harg1 arg2 harg2 arg3 harg3 v7 G ⟨k, hk'⟩
    rw [tripL3_eq] at hs
    have hpay : ∀ (r : Fin 256) (j : Fin 1024),
        k1_pay7 (F := Ideal) v7 (arg3.view.readAt (Elt Ideal) (Rect.unit (s := S256x8192) (k1_off4 ⟨k, hk'⟩) S256x1024.size (k1_off4_inb ⟨k, hk'⟩)).toLoadRect
            (arg3.view.writes (Elt Ideal) G (pb_k1_t3 (F := Ideal) 𝒱 c bd i arg1 harg1 arg2 harg2 arg3 harg3 v7 G k))) (ix2 r j)
          = arg3.view.read (Elt Ideal) G (ix2 r (chunkIdx k j)) * Ideal.div one (v7 (ix2 r (0 : Fin 1))) := by
      intro r j
      rw [pay7_apply, readAt_chunk arg3.view _ k (by omega) (k1_off4_eq ⟨k, hk'⟩) _ r j, ih2 r (chunkIdx k j), if_neg (by rw [chunkIdx_val (by omega)]; omega)]
    intro r s
    rw [show k + 1 = (⟨k, hk'⟩ : Fin k1_t3_loop.trips).val + 1 from rfl, hs]
    exact read_chunk_step arg3.view G k (by omega) (k1_off4_eq ⟨k, hk'⟩) _ _ _ r s
      (fun s => arg3.view.read (Elt Ideal) G (ix2 r s) * Ideal.div one (v7 (ix2 r (0 : Fin 1)))) _
      (fun j => hpay r j) (ih2 r s)

end Cert.KernelIdeal.Energies

end
-- ==== Proof.EnergiesBody.lean ====
/-
  What one run of the energies kernel's body leaves in the output block: row `r`, column `s` holds the chunked softmax of
  row `r`'s scores at `s`.

  The body's stores are the three loops' stores, last first.  Read back, the third loop's are its entry contents times the
  reciprocal of the row's total; its entry contents are the second loop's stores over the first's, which read as the
  exponentials of the scores minus the row's maximum; and the first loop's read as the scores.  The carried columns are
  the running maximum and the running sum after all eight chunks.
-/
import proofs.«404621_j31241592111494_3_alg».proof.Proof.FrameKernelIdeal
import proofs.«404621_j31241592111494_3_alg».proof.Proof.EnergiesLoops

noncomputable section

open scoped BigOperators

namespace Cert.KernelIdeal.Energies

open Cert.KernelIdeal Cert.KernelIdeal.Gen Cert.KernelIdeal.GenP Cert.KernelIdeal.Pay Cert.Attn
open Idealize.ShloMosaic Idealize.ShloMosaic.ValueIdx Idealize.SL.Sem

theorem zero_offsets : (![0, 0] : Fin 2 → Nat) = fun _ => 0 := funext fun a => by fin_cases a <;> rfl

theorem tripsN1 : Scf.trips k1_t1_loop.lb k1_t1_loop.ub k1_t1_loop.st = 8 := trips1
theorem tripsN2 : Scf.trips k1_t2_loop.lb k1_t2_loop.ub k1_t2_loop.st = 8 := trips2
theorem tripsN3 : Scf.trips k1_t3_loop.lb k1_t3_loop.ub k1_t3_loop.st = 8 := trips3

section
variable (c : Dev nD) (i : grid1.Coords) (arg1 : Memref sig .tc .vmem S256x1024 .bf16) (harg1 : arg1.IsWhole)
  (arg2 : Memref sig .tc .vmem S8192x1024 .bf16) (harg2 : arg2.IsWhole) (arg3 : Memref sig .tc .vmem S256x8192 .f32) (harg3 : arg3.IsWhole)
  (x0 : Vec Ideal S256x1024 .bf16) (x1 : Vec Ideal S8192x1024 .bf16)

/-- The body loads the whole query block. -/
theorem q1_eq : q1 (F := Ideal) c i arg1 harg1 arg2 harg2 arg3 harg3 x0 x1 = x0 := by
  show View.readAt (Elt Ideal) arg1.view (Rect.unit (s := S256x1024) ![0, 0] S256x1024.size inb_S256x1024_S256x1024_0_0).toLoadRect (harg1.unread x0) = x0
  rw [View.readAt_eq_ld, harg1.read_unread, View.ld_unit_zero (S := S256x1024) zero_offsets]

theorem s1_def : s1 (F := Ideal) c i arg1 harg1 arg2 harg2 arg3 harg3 x0 x1
    = st_k1_t1 (F := Ideal) Variants.none c none i arg1 harg1 arg2 harg2 arg3 harg3 (q1 (F := Ideal) c i arg1 harg1 arg2 harg2 arg3 harg3 x0 x1) (harg2.unread x1) (k1_pay1 (F := Ideal)) 8 := by
  show st_k1_t1 (F := Ideal) Variants.none c none i arg1 harg1 arg2 harg2 arg3 harg3 (q1 (F := Ideal) c i arg1 harg1 arg2 harg2 arg3 harg3 x0 x1) (harg2.unread x1) (k1_pay1 (F := Ideal)) (Scf.trips k1_t1_loop.lb k1_t1_loop.ub k1_t1_loop.st) = _
  rw [tripsN1]

theorem s2_def (f : BufTy.Contents (Elt Ideal) arg3.view.ty) : s2 (F := Ideal) c i arg1 harg1 arg2 harg2 arg3 harg3 x0 x1 f
    = st_k1_t2 (F := Ideal) Variants.none c none i arg1 harg1 arg2 harg2 arg3 harg3 (s1 (F := Ideal) c i arg1 harg1 arg2 harg2 arg3 harg3 x0 x1).1 (arg3.view.writes (Elt Ideal) f (s1 (F := Ideal) c i arg1 harg1 arg2 harg2 arg3 harg3 x0 x1).2) (k1_pay4 (F := Ideal)) 8 := by
  show st_k1_t2 (F := Ideal) Variants.none c none i arg1 harg1 arg2 harg2 arg3 harg3 (s1 (F := Ideal) c i arg1 harg1 arg2 harg2 arg3 harg3 x0 x1).1 (arg3.view.writes (Elt Ideal) f (s1 (F := Ideal) c i arg1 harg1 arg2 harg2 arg3 harg3 x0 x1).2) (k1_pay4 (F := Ideal)) (Scf.trips k1_t2_loop.lb k1_t2_loop.ub k1_t2_loop.st) = _
  rw [tripsN2]

theorem l3_def (f : BufTy.Contents (Elt Ideal) arg3.view.ty) : l3 (F := Ideal) c i arg1 harg1 arg2 harg2 arg3 harg3 x0 x1 f
    = pb_k1_t3 (F := Ideal) Variants.none c none i arg1 harg1 arg2 harg2 arg3 harg3 (s2 (F := Ideal) c i arg1 harg1 arg2 harg2 arg3 harg3 x0 x1 f).1 (arg3.view.writes (Elt Ideal) f ((s2 (F := Ideal) c i arg1 harg1 arg2 harg2 arg3 harg3 x0 x1 f).2 ++ (s1 (F := Ideal) c i arg1 harg1 arg2 harg2 arg3 harg3 x0 x1).2)) 8 := by
  show pb_k1_t3 (F := Ideal) Variants.none c none i arg1 harg1 arg2 harg2 arg3 harg3 (s2 (F := Ideal) c i arg1 harg1 arg2 harg2 arg3 harg3 x0 x1 f).1 (arg3.view.writes (Elt Ideal) f ((s2 (F := Ideal) c i arg1 harg1 arg2 harg2 arg3 harg3 x0 x1 f).2 ++ (s1 (F := Ideal) c i arg1 harg1 arg2 harg2 arg3 harg3 x0 x1).2)) (Scf.trips k1_t3_loop.lb k1_t3_loop.ub k1_t3_loop.st) = _
  rw [tripsN3]

/-- The first loop yields each row's maximum over the eight chunks. -/
theorem max_eq (r : Fin 256) : (s1 (F := Ideal) c i arg1 harg1 arg2 harg2 arg3 harg3 x0 x1).1 (ix2 r (0 : Fin 1)) = kMax (sc x0 x1 r) 8 := by
  have h := (loop1_inv Variants.none c none i arg1 harg1 arg2 harg2 arg3 harg3 (q1 (F := Ideal) c i arg1 harg1 arg2 harg2 arg3 harg3 x0 x1) (harg2.unread x1) (k1_pay1 (F := Ideal))
    (fun r => pay1'_apply r) 8 (le_refl 8)).1 r
  rw [harg2.read_unread, q1_eq] at h
  rw [s1_def, q1_eq]
  exact h

/-- After the first loop the buffer reads as the scores, whatever it held before. -/
theorem after1_read (f : BufTy.Contents (Elt Ideal) arg3.view.ty) (r : Fin 256) (s : Fin 8192) :
    arg3.view.read (Elt Ideal) (arg3.view.writes (Elt Ideal) f (s1 (F := Ideal) c i arg1 harg1 arg2 harg2 arg3 harg3 x0 x1).2) (ix2 r s) = sc x0 x1 r s := by
  have h := (loop1_inv Variants.none c none i arg1 harg1 arg2 harg2 arg3 harg3 (q1 (F := Ideal) c i arg1 harg1 arg2 harg2 arg3 harg3 x0 x1) (harg2.unread x1) (k1_pay1 (F := Ideal))
    (fun r => pay1'_apply r) 8 (le_refl 8)).2 arg3.view f r s
  rw [harg2.read_unread, q1_eq, if_pos (by have := s.isLt; omega)] at h
  rw [s1_def, q1_eq]
  exact h

/-- The second loop yields each row's total of exponentials over the eight chunks. -/
theorem sum_eq (f : BufTy.Contents (Elt Ideal) arg3.view.ty) (r : Fin 256) :
    (s2 (F := Ideal) c i arg1 harg1 arg2 harg2 arg3 harg3 x0 x1 f).1 (ix2 r (0 : Fin 1)) = kSum (sc x0 x1 r) (kMax (sc x0 x1 r) 8) 8 := by
  have h := (loop2_inv Variants.none c none i arg1 harg1 arg2 harg2 arg3 harg3 (s1 (F := Ideal) c i arg1 harg1 arg2 harg2 arg3 harg3 x0 x1).1 (arg3.view.writes (Elt Ideal) f (s1 (F := Ideal) c i arg1 harg1 arg2 harg2 arg3 harg3 x0 x1).2) (k1_pay4 (F := Ideal))
    (fun r => pay4_apply r) 8 (le_refl 8)).1 r
  rw [max_eq, show (fun s => arg3.view.read (Elt Ideal) (arg3.view.writes (Elt Ideal) f (s1 (F := Ideal) c i arg1 harg1 arg2 harg2 arg3 harg3 x0 x1).2) (ix2 r s)) = sc x0 x1 r from
    funext fun s => after1_read c i arg1 harg1 arg2 harg2 arg3 harg3 x0 x1 f r s] at h
  rw [s2_def]
  exact h

/-- After the second loop the buffer reads as the exponentials of the scores minus the row's maximum. -/
theorem after2_read (f : BufTy.Contents (Elt Ideal) arg3.view.ty) (r : Fin 256) (s : Fin 8192) :
    arg3.view.read (Elt Ideal) (arg3.view.writes (Elt Ideal) f ((s2 (F := Ideal) c i arg1 harg1 arg2 harg2 arg3 harg3 x0 x1 f).2 ++ (s1 (F := Ideal) c i arg1 harg1 arg2 harg2 arg3 harg3 x0 x1).2)) (ix2 r s)
      = Ideal.exp (sc x0 x1 r s - kMax (sc x0 x1 r) 8) := by
  have h := (loop2_inv Variants.none c none i arg1 harg1 arg2 harg2 arg3 harg3 (s1 (F := Ideal) c i arg1 harg1 arg2 harg2 arg3 harg3 x0 x1).1 (arg3.view.writes (Elt Ideal) f (s1 (F := Ideal) c i arg1 harg1 arg2 harg2 arg3 harg3 x0 x1).2) (k1_pay4 (F := Ideal))
    (fun r => pay4_apply r) 8 (le_refl 8)).2 r s
  rw [if_pos (by have := s.isLt; omega), after1_read, max_eq] at h
  rw [View.writes_append, s2_def]
  exact h

/-- After the third loop the buffer reads as the chunked softmax of each row. -/
theorem after3_read (f : BufTy.Contents (Elt Ideal) arg3.view.ty) (r : Fin 256) (s : Fin 8192) :
    arg3.view.read (Elt Ideal) (arg3.view.writes (Elt Ideal) f (piecesOver (F := Ideal) c i arg1 harg1 arg2 harg2 arg3 harg3 x0 x1 f)) (ix2 r s) = softRow (sc x0 x1 r) s := by
  have h := loop3_inv Variants.none c none i arg1 harg1 arg2 harg2 arg3 harg3 (s2 (F := Ideal) c i arg1 harg1 arg2 harg2 arg3 harg3 x0 x1 f).1 (arg3.view.writes (Elt Ideal) f ((s2 (F := Ideal) c i arg1 harg1 arg2 harg2 arg3 harg3 x0 x1 f).2 ++ (s1 (F := Ideal) c i arg1 harg1 arg2 harg2 arg3 harg3 x0 x1).2)) 8 (le_refl 8) r s
  rw [if_pos (by have := s.isLt; omega), after2_read, sum_eq] at h
  show arg3.view.read (Elt Ideal) (arg3.view.writes (Elt Ideal) f (l3 (F := Ideal) c i arg1 harg1 arg2 harg2 arg3 harg3 x0 x1 f ++ ((s2 (F := Ideal) c i arg1 harg1 arg2 harg2 arg3 harg3 x0 x1 f).2 ++ (s1 (F := Ideal) c i arg1 harg1 arg2 harg2 arg3 harg3 x0 x1).2))) (ix2 r s) = _
  rw [View.writes_append, l3_def]
  exact h

/-- What one run of the body leaves in the output block, entry by entry. -/
theorem out1_apply (r : Fin 256) (s : Fin 8192) :
    out1_A_2 (F := Ideal) c i arg1 harg1 arg2 harg2 arg3 harg3 x0 x1 (ix2 r s) = softRow (sc x0 x1 r) s := by
  unfold out1_A_2
  rw [View.read_writes_junk_apply_eq_canon, ← View.read_writes_junk_apply_eq_canon arg3.view]
  exact after3_read c i arg1 harg1 arg2 harg2 arg3 harg3 x0 x1 arg3.view.junk r s

end

end Cert.KernelIdeal.Energies

end
-- ==== Proof.EnergiesArray.lean ====
/-
  The energies array: what the second launch leaves in its output array, as one function of the two arrays it reads.

  The launch runs over 32 points.  Point t reads rows [256 t, 256 t + 256) of the query array and the whole of the
  projected array, and writes back rows [256 t, 256 t + 256) of the output, every column.  One run of the body leaves,
  at row r and column s of its output block, the chunked softmax at s of the scores of the block's query row r against
  every projected row.  Query row r of point t's block is row 256 t + r of the query array, so the block point t writes
  back is rows [256 t, 256 t + 256) of one function of the two arrays: entry (q, s) is the chunked softmax at s of the
  scores of query row q.  Every row q lies in the block of point q / 256, so the 32 blocks cover the array and it ends
  holding that function.
-/
import proofs.«404621_j31241592111494_3_alg».proof.Proof.EnergiesBody
import Idealize.ShloMosaic.Lib.Pipeline.Value
import Idealize.ShloMosaic.Lib.ValueIdx

noncomputable section

open scoped BigOperators

namespace Cert.KernelIdeal.EnergiesArray

open Cert.KernelIdeal Cert.KernelIdeal.Gen Cert.KernelIdeal.GenP Cert.KernelIdeal.Energies Cert.Attn
open Idealize.ShloMosaic Idealize.ShloMosaic.TcCoe Idealize.ShloMosaic.ValueIdx Idealize.SL.Sem
open Idealize.ShloMosaic.Pipeline (Dat)

/-! ## The array as one function -/

/-- The output array as one function of the two arrays the region reads: row q of the queries scored against every
    projected row, then the chunked softmax of that row. -/
def energiesOf (Q : S8192x1024.Idx → EReal) (P : S8192x1024.Idx → EReal) : S8192x8192.Idx → EReal :=
  fun y => softRow (fun s => ∑ d : Fin 1024, Q (ix2 (y 0) d) * P (ix2 s d)) (y 1)

/-- At the entry (q, s). -/
theorem energiesOf_apply (Q P : S8192x1024.Idx → EReal) (q s : Fin 8192) :
    energiesOf Q P (ix2 q s) = softRow (fun s' => ∑ d : Fin 1024, Q (ix2 q d) * P (ix2 s' d)) s := rfl

/-! ## Where the three windows' blocks sit -/

/-- The block indices over the grid: the query window and the output window move down the rows with the point, the
    projected window stays at the whole array. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem point_lt (t : Fin cfg1.N) : t.val < 32 := lt_of_lt_of_eq t.isLt N_1

/-- Row r of point t's block is a row of the array. -/
theorem row_lt (t : Fin cfg1.N) (r : Fin 256) : 256 * t.val + r.val < 8192 := by
  have := point_lt t; have := r.isLt; omega

/-- Entry (r, s) of point t's output block is entry (256 t + r, s) of the output array. -/
theorem out_at (t : Fin cfg1.N) (r : Fin 256) (s : Fin 8192) :
    ((cfg1.win 2).blk t).view.emb (ix2 r s) = ix2 (⟨256 * t.val + r.val, row_lt t r⟩ : Fin 8192) s := by
  funext a; apply Fin.ext
  obtain ⟨-, -, -, -, e4, e5⟩ := idx_facts t
  match a with
  | ⟨0, _⟩ => show win1_2.index t (0 : Fin 2) * 256 + 1 * r.val = 256 * t.val + r.val; omega
  | ⟨1, _⟩ => show win1_2.index t (1 : Fin 2) * 8192 + 1 * s.val = s.val; omega

/-- Entry (r, d) of point t's query block is entry (256 t + r, d) of the query array. -/
theorem qwin_read (X : S8192x1024.Idx → EReal) (t : Fin cfg1.N) (r : Fin 256) (d : Fin 1024) :
    ((cfg1.win 0).blk t).view.read (Elt Ideal) X (ix2 r d) = X (ix2 (⟨256 * t.val + r.val, row_lt t r⟩ : Fin 8192) d) := by
  show X (((cfg1.win 0).blk t).view.emb (ix2 r d)) = _
  refine congrArg X (funext fun a => Fin.ext ?_)
  obtain ⟨e0, e1, -⟩ := idx_facts t
  match a with
  | ⟨0, _⟩ => show win1_0.index t (0 : Fin 2) * 256 + 1 * r.val = 256 * t.val + r.val; omega
  | ⟨1, _⟩ => show win1_0.index t (1 : Fin 2) * 1024 + 1 * d.val = d.val; omega

/-- The projected window's block is the whole projected array at every point. -/
theorem pwin_read (X : S8192x1024.Idx → EReal) (t : Fin cfg1.N) (s : Fin 8192) (d : Fin 1024) :
    ((cfg1.win 1).blk t).view.read (Elt Ideal) X (ix2 s d) = X (ix2 s d) := by
  show X (((cfg1.win 1).blk t).view.emb (ix2 s d)) = _
  refine congrArg X (funext fun a => Fin.ext ?_)
  obtain ⟨-, -, e2, e3, -⟩ := idx_facts t
  match a with
  | ⟨0, _⟩ => show win1_1.index t (0 : Fin 2) * 8192 + 1 * s.val = s.val; omega
  | ⟨1, _⟩ => show win1_1.index t (1 : Fin 2) * 1024 + 1 * d.val = d.val; omega

/-- An entry of the output array is in point t's block iff each coordinate is in the block's range on its axis. -/
theorem mem_blk (t : Fin cfg1.N) (i : S8192x8192.Idx) :
    i ∈ ((cfg1.win 2).blk t).view.set ↔ ∀ a : Fin 2, win1_2.index t a * S256x8192.size a ≤ (i a).val ∧ (i a).val < win1_2.index t a * S256x8192.size a + S256x8192.size a := by
  show i ∈ ((View.whole main_v4).slice (win1_2.rect t)).set ↔ _
  rw [View.set_slice_whole, Rect.mem_set_unit]
  exact Iff.rfl

/-- Every entry of the output array is in some point's block: row q in the block of point q / 256, every column. -/
theorem cover (i : S8192x8192.Idx) :
    ∃ t : Fin cfg1.N, (cfg1.win 2).flush t = true ∧ i ∈ ((cfg1.win 2).blk t).view.set := by
  have hi0 : (i 0).val < 8192 := (i 0).isLt
  have hi1 : (i 1).val < 8192 := (i 1).isLt
  have hN : cfg1.N = 32 := N_1
  refine ⟨⟨(i 0).val / 256, by rw [hN]; omega⟩, flush1_2 _, ?_⟩
  rw [mem_blk]
  obtain ⟨-, -, -, -, e4, e5⟩ := idx_facts ⟨(i 0).val / 256, by rw [hN]; omega⟩
  intro a
  match a with
  | ⟨0, _⟩ =>
    show win1_2.index _ (0 : Fin 2) * 256 ≤ (i 0).val ∧ (i 0).val < win1_2.index _ (0 : Fin 2) * 256 + 256
    rw [e4]; show (i 0).val / 256 * 256 ≤ (i 0).val ∧ (i 0).val < (i 0).val / 256 * 256 + 256; omega
  | ⟨1, _⟩ =>
    show win1_2.index _ (1 : Fin 2) * 8192 ≤ (i 1).val ∧ (i 1).val < win1_2.index _ (1 : Fin 2) * 8192 + 8192
    rw [e5]; omega

/-! ## What each point writes back, and the array after the last point -/

section
variable (V : (c : Dev nD) → (b : Ref sig .tc) → Buf (Elt Ideal) ((c : Thread nD τ).loc b))

/-- The query array and the projected array as the region finds them. -/
abbrev qarr (c : Dev nD) : S8192x1024.Idx → EReal := V c main_v3
abbrev parr (c : Dev nD) : S8192x1024.Idx → EReal := V c main_v2

/-- Point t's query block and projected block. -/
abbrev qblk (c : Dev nD) (t : Fin cfg1.N) : Vec Ideal S256x1024 .bf16 := iblk1 (F := Ideal) V c 0 t
abbrev pblk (c : Dev nD) (t : Fin cfg1.N) : Vec Ideal S8192x1024 .bf16 := iblk1 (F := Ideal) V c 1 t

theorem qblk_at (c : Dev nD) (t : Fin cfg1.N) (r : Fin 256) (d : Fin 1024) :
    qblk V c t (ix2 r d) = qarr V c (ix2 (⟨256 * t.val + r.val, row_lt t r⟩ : Fin 8192) d) :=
  qwin_read (qarr V c) t r d

theorem pblk_at (c : Dev nD) (t : Fin cfg1.N) (s : Fin 8192) (d : Fin 1024) :
    pblk V c t (ix2 s d) = parr V c (ix2 s d) :=
  pwin_read (parr V c) t s d

/-- The scores of point t's block row r are the scores of query row 256 t + r. -/
theorem sc_block (c : Dev nD) (t : Fin cfg1.N) (r : Fin 256) :
    sc (qblk V c t) (pblk V c t) r
      = fun s => ∑ d : Fin 1024, qarr V c (ix2 (⟨256 * t.val + r.val, row_lt t r⟩ : Fin 8192) d) * parr V c (ix2 s d) := by
  funext s
  unfold sc
  refine Finset.sum_congr rfl fun d _ => ?_
  rw [qblk_at V c t r d, pblk_at V c t s d]

/-- What point t writes back is block t of the one function of the two arrays. -/
theorem flushed_eq (c : Dev nD) (t : Fin cfg1.N) :
    (dat1 (F := Ideal) V c).flushed 2 t
      = ((cfg1.win 2).blk t).view.read (Elt Ideal) (energiesOf (V c main_v3) (V c main_v2)) := by
  show (cfg1.win 2).cut (grid1.coords t) ((dat1 (F := Ideal) V c).after 2 t) = _
  rw [after1_2]
  funext y
  obtain ⟨r, s, rfl⟩ : ∃ (r : Fin 256) (s : Fin 8192), y = ix2 r s := ⟨y 0, y 1, eq_ix2 y⟩
  show outsAt1 (F := Ideal) V c t (ix2 r s)
    = energiesOf (qarr V c) (parr V c) (((cfg1.win 2).blk t).view.emb (ix2 r s))
  rw [out_at t r s, energiesOf_apply]
  unfold outsAt1
  refine (out1_apply c (grid1.coords t) (ms1_0 t) (hs1_0 t) (ms1_1 t) (hs1_1 t) (ms1_2 t) (hs1_2 t)
    (qblk V c t) (pblk V c t) r s).trans ?_
  exact congrArg (fun f => softRow f s) (sc_block V c t r)

/-- The output array after the last point: the chunked softmax of every query row's scores. -/
theorem energies_final (c : Dev nD) :
    (dat1 (F := Ideal) V c).arrAt 2 cfg1.N = energiesOf (V c main_v3) (V c main_v2) :=
  (dat1 (F := Ideal) V c).arrAt_eq_of_cover 2 (energiesOf (V c main_v3) (V c main_v2))
    (fun t _ => flushed_eq V c t) cover

end

end Cert.KernelIdeal.EnergiesArray

end
-- ==== Proof.KernelValue.lean ====
/-
  The kernel's result: the two regions composed.  The first region leaves the projected history in its output array;
  the second reads it whole, together with the query array in blocks of 256 rows, and leaves in the result array the
  chunked softmax of each query row's scores.  The host operations between them only change formats, which at the
  ideal values is the identity, and recast the bias vector as a one-row matrix.
-/
import proofs.«404621_j31241592111494_3_alg».proof.Proof.FrameKernelIdeal
import proofs.«404621_j31241592111494_3_alg».proof.Proof.ProjArray
import proofs.«404621_j31241592111494_3_alg».proof.Proof.EnergiesArray
import proofs.«404621_j31241592111494_3_alg».proof.Proof.Attention

noncomputable section

open scoped BigOperators

namespace Cert.KernelIdeal.KernelValue

open Cert.KernelIdeal Cert.KernelIdeal.Gen Cert.KernelIdeal.GenP Cert.KernelIdeal.Energies Cert.KernelIdeal.EnergiesArray Cert.KernelIdeal.ProjArray Cert.Attn
open Idealize.ShloMosaic Idealize.ShloMosaic.TcCoe Idealize.ShloMosaic.ValueIdx Idealize.SL.Sem

variable (m : (ℓ : Loc nD τ sig) → Buf (Elt Ideal) ℓ) (ρ : Dev nD → PrngReg)

/-- The result array after the run is the chunked softmax of the scores of the query rows against the projected
    history rows, as a function of the four argument arrays. -/
theorem result_eq (c : Dev nD) :
    W4 (F := Ideal) m ρ c (Proc.devRef .tc main_v4)
      = kerOut (m ((c : Thread nD τ).loc main_arg0)) (m ((c : Thread nD τ).loc main_arg1)) (m ((c : Thread nD τ).loc main_arg2)) (m ((c : Thread nD τ).loc main_arg3)) := by
  refine (W4_arr (F := Ideal) m ρ c 2).trans ?_
  rw [energies_final (V3 (F := Ideal) m ρ) c, V3_query, V3_proj_spec]
  rfl

/-- The kernel's run with its result named by the specification. -/
theorem run_spec : θ_run (defs (F := Ideal)) (onTc (τ := τ) (main (F := Ideal))) ⟨m, fun _ => 0, ρ⟩ (fun r => ∀ c : Dev nD,
      r.2.mem ((c.tc : Thread nD τ).loc main_v4)
        = kerOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun r h c => ⟨(h c).1.trans (result_eq m ρ c), (h c).2⟩) (run_named (F := Ideal) m ρ)

end Cert.KernelIdeal.KernelValue

end
-- ==== Proof.ReferenceValue.lean ====
/-
  The reference's value: what its run leaves in the result array, read index by index as the one-pass softmax of the scores.

  The run's term is twenty array operations composed.  Read at one entry (q, s) of the result it is
    exp (x q s - M q) / (0 + ∑ s', exp (x q s' - M q)),
  where x q s = ∑ d, os q d * P s d is the score of query row q against the projected history row s,
  P s o = (∑ i, hist s i * W o i) + b o, and M q = max (-∞) (the fold of max from -∞ over x q).
  Each stage is read at coordinates: the two contractions as sums over the contracted coordinate, the broadcasts
  as reads of their operands at the kept coordinates, the row maximum as a fold over the columns, the row sum
  as the initial value plus a sum over the columns.
-/
import proofs.«404621_j31241592111494_3_alg».proof.Defs
import proofs.«404621_j31241592111494_3_alg».proof.Proof.Gen.ReferenceIdeal.Run
import proofs.«404621_j31241592111494_3_alg».proof.Proof.Gen.ReferenceIdeal.Read
import proofs.«404621_j31241592111494_3_alg».proof.Proof.Attention
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## Where each stage reads its operands, in coordinates -/

/-- The first contraction at (s, o) reads the history at (s, k). -/
theorem hist_at (s : Fin 8192) (o k : Fin 1024) : lidx_main_v1 (ix2 s o) k = ix2 s k :=
  funext fun a => Fin.ext (by match a with | ⟨0, _⟩ => rfl | ⟨1, _⟩ => rfl)

/-- … and the transposed weights at (k, o), that is the weights at (o, k). -/
theorem weight_at (s : Fin 8192) (o k : Fin 1024) : idx_main_v0 (ridx_main_v1 (ix2 s o) k) = ix2 o k :=
  funext fun a => Fin.ext (by match a with | ⟨0, _⟩ => rfl | ⟨1, _⟩ => rfl)

/-- The bias broadcast to [8192, 1024] reads, at (s, o), the bias at o. -/
theorem bias_at (s : Fin 8192) (o : Fin 1024) : idx_main_v2 (idx_main_v3 (ix2 s o)) = ix1 o :=
  funext fun a => Fin.ext (by match a with | ⟨0, _⟩ => rfl)

/-- The second contraction at (q, s) reads the queries at (q, d) … -/
theorem query_at (q s : Fin 8192) (d : Fin 1024) : lidx_main_v5 (ix2 q s) d = ix2 q d :=
  funext fun a => Fin.ext (by match a with | ⟨0, _⟩ => rfl | ⟨1, _⟩ => rfl)

/-- … and the projected history at (s, d). -/
theorem projected_at (q s : Fin 8192) (d : Fin 1024) : ridx_main_v5 (ix2 q s) d = ix2 s d :=
  funext fun a => Fin.ext (by match a with | ⟨0, _⟩ => rfl | ⟨1, _⟩ => rfl)

/-- A row's maximum broadcast to [8192, 8192] reads, at (q, s), the maximum of row q. -/
theorem rowMax_idx (q s : Fin 8192) : idx_main_v9 (idx_main_v10 (ix2 q s)) = ix1 q :=
  funext fun a => Fin.ext (by match a with | ⟨0, _⟩ => rfl)

/-- A row's sum broadcast to [8192, 8192] reads, at (q, s), the sum of row q. -/
theorem rowSum_idx (q s : Fin 8192) : idx_main_v14 (idx_main_v15 (ix2 q s)) = ix1 q :=
  funext fun a => Fin.ext (by match a with | ⟨0, _⟩ => rfl)

/-- The row sum at q runs over the entries (q, k). -/
theorem summand_idx (q k : Fin 8192) : idx_main_v13 (ix1 q) k = ix2 q k :=
  funext fun a => Fin.ext (by match a with | ⟨0, _⟩ => rfl | ⟨1, _⟩ => rfl)

/-- Row q with the column k put back on the reduced axis is the entry (q, k). -/
theorem lift_row (h : S8192x8192.Reduces [1] S8192) (q : Fin 8192) (k : Fin (S8192x8192.size 1)) :
    h.lift (ix1 q) k = ix2 q (⟨k.val, k.isLt⟩ : Fin 8192) :=
  funext fun a => Fin.ext (by match a with | ⟨0, _⟩ => rfl | ⟨1, _⟩ => rfl)

/-! ## The stages at coordinates -/

section
variable (x0 x1 : FVec Ideal S8192x1024 .f32) (x2 : FVec Ideal S1024x1024 .f32) (x3 : FVec Ideal S1024 .f32)

/-- The projected history: the affine image of history row s, at output o. -/
theorem proj_at (s : Fin 8192) (o : Fin 1024) :
    val_main_v4 (F := Ideal) x1 x2 x3 (ix2 s o) = Cert.Attn.proj x1 x2 x3 s o := by
  rw [val_main_v4_apply, val_main_v1_apply, val_main_v3_apply, val_main_v2_apply, bias_at]
  simp only [val_main_v0_apply, hist_at, weight_at, Ideal.addf_def]
  rfl

/-- The scores: query row q against projected row s. -/
theorem score_at (q s : Fin 8192) :
    val_main_v5 (F := Ideal) x0 x1 x2 x3 (ix2 q s) = Cert.Attn.score x0 (Cert.Attn.proj x1 x2 x3) q s := by
  rw [val_main_v5_apply]
  unfold Cert.Attn.score
  refine Finset.sum_congr rfl fun d _ => ?_
  rw [query_at, projected_at, proj_at]

/-- The maximum over the columns of any [8192, 8192] array, from minus infinity, at row q: the fold of max over the
    row's entries. -/
theorem rowFold (y : FVec Ideal S8192x8192 .f32) (q : Fin 8192) :
    Host.reduce (FloatOps.maximumf (F := Ideal) (φ := .f32)) y (val_main_cst (F := Ideal)) reducesTo_S8192x8192_S8192_d1 h_S_ (ix1 q)
      = (Finset.univ : Finset (Fin 8192)).fold max Cert.Attn.ninf fun s => y (ix2 q s) := by
  have h : S8192x8192.Reduces [1] S8192 := by decide
  rw [Host.reduce_eq_fold_single (FloatOps.maximumf (F := Ideal) (φ := .f32)) y _ reducesTo_S8192x8192_S8192_d1 h h_S_]
  exact Finset.fold_congr fun k _ => congrArg y (lift_row h q k)

/-- The row maximum the differences are taken from: minus infinity joined with the fold. -/
theorem rowMax_at (q : Fin 8192) :
    val_main_v8 (F := Ideal) x0 x1 x2 x3 (ix1 q)
      = Cert.Attn.refMax (Cert.Attn.score x0 (Cert.Attn.proj x1 x2 x3) q) := by
  rw [val_main_v8_apply, val_main_v7_apply, val_main_cst_0_apply]
  unfold val_main_v6
  have hy := score_at x0 x1 x2 x3 q
  generalize val_main_v5 (F := Ideal) x0 x1 x2 x3 = y at hy ⊢
  rw [rowFold y q]
  unfold Cert.Attn.refMax
  simp only [hy, Ideal.maximumf_def, Ideal.ofBits_def]
  rfl

/-- The exponential of a score's difference from its row's maximum. -/
theorem exp_at (q s : Fin 8192) :
    val_main_v12 (F := Ideal) x0 x1 x2 x3 (ix2 q s)
      = Ideal.exp (Cert.Attn.score x0 (Cert.Attn.proj x1 x2 x3) q s
          - Cert.Attn.refMax (Cert.Attn.score x0 (Cert.Attn.proj x1 x2 x3) q)) := by
  rw [val_main_v12_apply, val_main_v11_apply, val_main_v10_apply, val_main_v9_apply, rowMax_idx, rowMax_at, score_at]
  simp only [Ideal.hostUnary_exp_def, Ideal.subf_def]

/-- The run's composed term is the one-pass softmax of the scores, index by index. -/
theorem result_eq :
    val_main_v16 (F := Ideal) x0 x1 x2 x3 = Cert.Attn.refOut x0 x1 x2 x3 := by
  funext i
  obtain ⟨q, s, rfl⟩ : ∃ (q : Fin 8192) (s : Fin 8192), i = ix2 q s := ⟨i 0, i 1, eq_ix2 i⟩
  rw [val_main_v16_apply, val_main_v15_apply, val_main_v14_apply, rowSum_idx, val_main_v13_apply, val_main_cst_1_apply,
    exp_at]
  simp only [summand_idx, exp_at, Ideal.hostDivf_def, Ideal.ofBits_def, Ideal.ofBits_zero_f32]
  rfl

end

/-! ## The run -/

/-- The reference's run with its result named by the specification: every weakly fair execution terminates with the
    result array at the one-pass softmax of the scores of the launch's argument arrays, and those arrays unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v16) = Cert.Attn.refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c).1.trans ((val_main_v16_eq (F := Ideal) _ _ _ _).trans (result_eq _ _ _ _)), (h c).2⟩)
    (Cert.ReferenceIdeal.Value.run (F := Ideal) m ρ)

end Cert.ReferenceIdeal.RefValue

end
-- ==== Proof.AttentionLaws.lean ====
/-
  Laws of the softmax specification: the two named constants, realness of every score, and the agreement of
  the chunked softmax with the one-pass softmax on a family of real rows.

  The eight chunks of 1024 columns partition the 8192 columns (column s is column s % 1024 of chunk s / 1024).
  A maximum is the least upper bound, so the running maximum over the chunks' maxima is the row's maximum; a
  sum over a partition is the sum over the whole, so the running sum over the chunks' sums is the row's sum.
  On a real row the maximum M is real, every exponential exp (x s - M) is a positive real, and so the total L is
  a positive real: L is not zero, the reciprocal is 1 * L⁻¹ = L⁻¹, and e * L⁻¹ is the quotient of e by L.
-/
import proofs.«404621_j31241592111494_3_alg».proof.Proof.Attention
import Mathlib.Data.Finset.Fold
import Mathlib.Data.EReal.Basic
import Mathlib.Data.EReal.Operations
import Mathlib.Data.EReal.Inv
import Mathlib.Algebra.BigOperators.Fin
import Mathlib.Algebra.BigOperators.Group.Finset.Basic
import Mathlib.Algebra.Order.BigOperators.Group.Finset
import Mathlib.Analysis.Complex.Exponential

noncomputable section

open scoped BigOperators

namespace Cert.Attn

open Idealize.ShloMosaic Idealize.ShloMosaic.ValueIdx

theorem ninf_eq : ninf = ⊥ := by
  simp [ninf, Ideal.ofBits, Ideal.ieee]

theorem one_eq : one = 1 := by
  simp [one, Ideal.ofBits, Ideal.ieee, -EReal.coe_mul]; norm_num

/-! ## Reals are closed under the ring operations and finite sums -/

private theorem real_mul {a b : EReal} (ha : ∃ r : ℝ, a = (r : EReal)) (hb : ∃ r : ℝ, b = (r : EReal)) :
    ∃ r : ℝ, a * b = (r : EReal) := by
  obtain ⟨r, rfl⟩ := ha
  obtain ⟨t, rfl⟩ := hb
  exact ⟨r * t, (EReal.coe_mul r t).symm⟩

private theorem real_add {a b : EReal} (ha : ∃ r : ℝ, a = (r : EReal)) (hb : ∃ r : ℝ, b = (r : EReal)) :
    ∃ r : ℝ, a + b = (r : EReal) := by
  obtain ⟨r, rfl⟩ := ha
  obtain ⟨t, rfl⟩ := hb
  exact ⟨r + t, (EReal.coe_add r t).symm⟩

/-- The coercion of a finite sum of reals is the sum of the coercions. -/
private theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

private theorem real_sum {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [← coe_sum]; exact Finset.sum_congr rfl fun i _ => hg i⟩

/-- sums and products of reals are reals: every score is a real when every input entry is -/
theorem score_proj_real (os hist : Mat 8192 1024) (W : Mat 1024 1024) (b : Row 1024)
    (hos : ∀ i, ∃ r : ℝ, os i = (r : EReal)) (hhist : ∀ i, ∃ r : ℝ, hist i = (r : EReal))
    (hW : ∀ i, ∃ r : ℝ, W i = (r : EReal)) (hb : ∀ i, ∃ r : ℝ, b i = (r : EReal)) (q s : Fin 8192) :
    ∃ r : ℝ, score os (proj hist W b) q s = (r : EReal) := by
  unfold score
  refine real_sum _ _ fun d => real_mul (hos _) ?_
  unfold proj
  exact real_add (real_sum _ _ fun i => real_mul (hhist _) (hW _)) (hb _)

/-! ## The chunks partition the columns -/

/-- Chunk k, column j ↦ column 1024 * k + j: a bijection from 8 × 1024 onto the 8192 columns. -/
private def chunkEquiv : Fin 8 × Fin 1024 ≃ Fin 8192 where
  toFun p := chunkIdx p.1.val p.2
  invFun s := (⟨s.val / 1024, by have := s.isLt; omega⟩, ⟨s.val % 1024, Nat.mod_lt _ (by norm_num)⟩)
  left_inv p := by
    obtain ⟨⟨k, hk⟩, ⟨j, hj⟩⟩ := p
    simp only [chunkIdx, Prod.mk.injEq, Fin.mk.injEq]
    constructor <;> omega
  right_inv s := by
    obtain ⟨s, hs⟩ := s
    simp only [chunkIdx, Fin.mk.injEq]
    omega

/-- Every column lies in one of the eight chunks. -/
private theorem exists_chunk (s : Fin 8192) : ∃ k, k < 8 ∧ ∃ j : Fin 1024, chunkIdx k j = s := by
  refine ⟨s.val / 1024, by have := s.isLt; omega, ⟨s.val % 1024, Nat.mod_lt _ (by norm_num)⟩, ?_⟩
  obtain ⟨s, hs⟩ := s
  simp only [chunkIdx, Fin.mk.injEq]
  omega

/-! ## The running maximum is the row's maximum -/

private theorem kMax_le_iff (x : Fin 8192 → EReal) (c : EReal) (k : ℕ) :
    kMax x k ≤ c ↔ ∀ k' < k, ∀ j : Fin 1024, x (chunkIdx k' j) ≤ c := by
  induction k with
  | zero => simp [kMax, ninf_eq]
  | succ k ih =>
    rw [kMax, max_le_iff, ih, Finset.fold_max_le, ninf_eq]
    constructor
    · rintro ⟨h1, -, h2⟩ k' hk' j
      rcases Nat.lt_succ_iff_lt_or_eq.mp hk' with h | rfl
      · exact h1 k' h j
      · exact h2 j (Finset.mem_univ _)
    · intro h
      exact ⟨fun k' hk' j => h k' (Nat.lt_succ_of_lt hk') j, bot_le, fun j _ => h k (Nat.lt_succ_self k) j⟩

private theorem refMax_le_iff (x : Fin 8192 → EReal) (c : EReal) : refMax x ≤ c ↔ ∀ s, x s ≤ c := by
  rw [refMax, max_le_iff, Finset.fold_max_le, ninf_eq]
  constructor
  · rintro ⟨-, -, h⟩ s
    exact h s (Finset.mem_univ _)
  · intro h
    exact ⟨bot_le, bot_le, fun s _ => h s⟩

private theorem kMax_eq_refMax (x : Fin 8192 → EReal) : kMax x 8 = refMax x := by
  refine eq_of_forall_ge_iff fun c => ?_
  rw [kMax_le_iff, refMax_le_iff]
  constructor
  · intro h s
    obtain ⟨k, hk, j, rfl⟩ := exists_chunk s
    exact h k hk j
  · intro h k' _ j
    exact h _

/-! ## The running sum is the row's sum -/

private theorem kSum_eq (x : Fin 8192 → EReal) (M : EReal) (k : ℕ) :
    kSum x M k = ∑ i : Fin k, ∑ j : Fin 1024, Ideal.exp (x (chunkIdx i.val j) - M) := by
  induction k with
  | zero => simp [kSum]
  | succ k ih =>
    rw [kSum, ih]
    exact (Fin.sum_univ_castSucc fun i : Fin (k + 1) => ∑ j : Fin 1024, Ideal.exp (x (chunkIdx i.val j) - M)).symm

private theorem kSum_eight (x : Fin 8192 → EReal) (M : EReal) :
    kSum x M 8 = 0 + ∑ s : Fin 8192, Ideal.exp (x s - M) := by
  rw [kSum_eq, zero_add, ← Fintype.sum_prod_type']
  exact Fintype.sum_equiv chunkEquiv _ _ fun _ => rfl

/-! ## On a real row the maximum is real and the total is a positive real -/

private theorem refMax_real (x : Fin 8192 → EReal) (hx : ∀ s, ∃ r : ℝ, x s = (r : EReal)) :
    ∃ m : ℝ, refMax x = (m : EReal) := by
  have hfold : refMax x = Finset.univ.fold max ⊥ x := by rw [refMax, ninf_eq, max_eq_right bot_le]
  have htop : refMax x < ⊤ := by
    rw [hfold, Finset.fold_max_lt]
    refine ⟨bot_lt_top, fun s _ => ?_⟩
    obtain ⟨r, hr⟩ := hx s
    rw [hr]; exact EReal.coe_lt_top r
  have hbot : ⊥ < refMax x := by
    rw [hfold, Finset.lt_fold_max]
    refine Or.inr ⟨0, Finset.mem_univ _, ?_⟩
    obtain ⟨r, hr⟩ := hx 0
    rw [hr]; exact EReal.bot_lt_coe r
  exact ⟨(refMax x).toReal, (EReal.coe_toReal htop.ne hbot.ne').symm⟩

private theorem total_ne_zero (x : Fin 8192 → EReal) (hx : ∀ s, ∃ r : ℝ, x s = (r : EReal)) :
    (0 + ∑ s : Fin 8192, Ideal.exp (x s - refMax x)) ≠ 0 := by
  obtain ⟨m, hm⟩ := refMax_real x hx
  choose g hg using hx
  have hterm : ∀ s, Ideal.exp (x s - refMax x) = ((Real.exp (g s - m) : ℝ) : EReal) := by
    intro s
    rw [hg s, hm, ← EReal.coe_sub]
    rfl
  rw [zero_add, Finset.sum_congr rfl fun s _ => hterm s, coe_sum]
  have hpos : 0 < ∑ s : Fin 8192, Real.exp (g s - m) :=
    Finset.sum_pos (fun s _ => Real.exp_pos _) ⟨0, Finset.mem_univ _⟩
  intro h
  have : (∑ s : Fin 8192, Real.exp (g s - m)) = 0 := by exact_mod_cast h
  exact (ne_of_gt hpos) this

/-- the chunked softmax is the one-pass softmax on a family of real rows -/
theorem kerSoft_eq_refSoft (x : Fin 8192 → Fin 8192 → EReal) (hx : ∀ q s, ∃ r : ℝ, x q s = (r : EReal)) (q s : Fin 8192) :
    kerSoft x q s = refSoft x q s := by
  have hL := total_ne_zero (x q) (hx q)
  unfold kerSoft refSoft
  rw [kMax_eq_refMax, kSum_eight, Ideal.div, Ideal.div, if_neg hL, if_neg hL, one_eq, one_mul]

theorem kerOut_eq_refOut (os hist : Mat 8192 1024) (W : Mat 1024 1024) (b : Row 1024)
    (hos : ∀ i, ∃ r : ℝ, os i = (r : EReal)) (hhist : ∀ i, ∃ r : ℝ, hist i = (r : EReal))
    (hW : ∀ i, ∃ r : ℝ, W i = (r : EReal)) (hb : ∀ i, ∃ r : ℝ, b i = (r : EReal)) :
    kerOut os hist W b = refOut os hist W b := by
  funext j
  exact kerSoft_eq_refSoft _ (fun q s => score_proj_real os hist W b hos hhist hW hb q s) (j 0) (j 1)

end Cert.Attn

end
-- ==== Proof.FiniteInputs.lean ====
/-
  The finiteness precondition read back: where the printed predicate "every |x| is below plus infinity, for
  each of the four inputs" is true, every entry of every input is a real number.

  The predicate is a conjunction of four reductions by "and" over all axes; a conjunction that is 1 has both
  conjuncts 1, and a reduction by "and" that is 1 met a 1 at every index.  The element fact is
  max x (-x) < ⊤, which fails at both infinities (max ⊤ ⊥ = max ⊥ ⊤ = ⊤) and so leaves only the reals.
-/
import proofs.«404621_j31241592111494_3_alg».proof.Pre_finite_inputs
import Idealize.ShloMosaic.Lib.ReduceAll
import Idealize.ShloMosaic.PureOps.Ideal
import Idealize.ShloMosaic.Lib.ValueIdx
import Mathlib.Data.EReal.Basic

noncomputable section

namespace Cert.Attn

open Idealize.ShloMosaic

/-- The shape of a scalar has exactly one index. -/
private instance subsingleton_scalarIdx : Subsingleton Cert.Pre_finite_inputs.S_.Idx :=
  ⟨fun _ _ => funext fun d => d.elim0⟩

/-- An extended real whose absolute value is below the value of the f32 pattern of plus infinity is a real. -/
private theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

theorem real_of_finite_inputs [Cert.Pre_finite_inputs.Facts]
    (x0 x1 : FVec Ideal Cert.Pre_finite_inputs.S8192x1024 .f32) (x2 : FVec Ideal Cert.Pre_finite_inputs.S1024x1024 .f32)
    (x3 : FVec Ideal Cert.Pre_finite_inputs.S1024 .f32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1] at h0
  obtain ⟨h13, h17⟩ := IntOp.andi_eq_one.1 h0
  obtain ⟨h8, h12⟩ := IntOp.andi_eq_one.1 h13
  obtain ⟨h3, h7⟩ := IntOp.andi_eq_one.1 h8
  exact ⟨fun i => real_of_abs_lt_inf _ (Host.reduce_andi_all _ _ _ _ _ h3 i),
    fun i => real_of_abs_lt_inf _ (Host.reduce_andi_all _ _ _ _ _ h7 i),
    fun i => real_of_abs_lt_inf _ (Host.reduce_andi_all _ _ _ _ _ h12 i),
    fun i => real_of_abs_lt_inf _ (Host.reduce_andi_all _ _ _ _ _ h17 i)⟩

end Cert.Attn

end
-- ==== Proof.lean ====
/-
  The certificate's claims assembled.

  Both programs compute a softmax along each row of the scores of the query rows against the affine image of the history
  rows.  The reference takes each row's maximum, exponentials, sum and quotient in one pass over the 8192 columns; the
  kernel works on blocks of 256 query rows and, within a block, over eight chunks of 1024 columns: a running maximum of
  the chunks' maxima, a running sum of the chunks' sums of exponentials, and a product with the reciprocal of the total.
  A maximum and a sum do not depend on the grouping, and wherever the inputs are finite every score is a real number, so
  the total is a positive real and multiplying by its reciprocal is dividing by it: the two results agree entry by entry.
  The three frame claims are the programs' runs with the results dropped; the idealization rewrote nothing.
-/
import proofs.«404621_j31241592111494_3_alg».proof.Defs
import proofs.«404621_j31241592111494_3_alg».proof.Proof.Gen.Kernel
import proofs.«404621_j31241592111494_3_alg».proof.Proof.Gen.KernelIdeal
import proofs.«404621_j31241592111494_3_alg».proof.Proof.Gen.ReferenceIdeal
import proofs.«404621_j31241592111494_3_alg».proof.Proof.Gen.Pre_finite_inputs
import proofs.«404621_j31241592111494_3_alg».proof.Proof.FrameKernel
import proofs.«404621_j31241592111494_3_alg».proof.Proof.FrameKernelIdeal
import proofs.«404621_j31241592111494_3_alg».proof.Proof.KernelValue
import proofs.«404621_j31241592111494_3_alg».proof.Proof.ReferenceValue
import proofs.«404621_j31241592111494_3_alg».proof.Proof.AttentionLaws
import proofs.«404621_j31241592111494_3_alg».proof.Proof.FiniteInputs
import Idealize.ShloMosaic.Adequacy
import Idealize.ShloMosaic.Init

noncomputable section

namespace Cert.Proof

open Idealize.ShloMosaic Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments, of which the kernel's are finite, both runs end with the result
    array at the chunked softmax of the scores: the kernel's by its two regions, the reference's because its one-pass
    softmax is the chunked one on real scores. -/
theorem algebraic : Cert.algebraic_KernelIdeal_ReferenceIdeal := by
  intro m ρ m' ρ' hpre hagree
  refine ⟨_, Cert.KernelIdeal.KernelValue.run_spec m ρ, ?_⟩
  refine (θ_run Cert.ReferenceIdeal.defs _ _).mono (fun _ h c => ⟨(h c).1.trans ?_, (h c).2⟩)
    (Cert.ReferenceIdeal.RefValue.run_spec m' ρ')
  obtain ⟨h0, h1, h2, h3⟩ := Cert.Attn.real_of_finite_inputs _ _ _ _ (hpre c)
  rw [(hagree c).1, (hagree c).2.1, (hagree c).2.2.1, (hagree c).2.2.2]
  exact (Cert.Attn.kerOut_eq_refOut _ _ _ _ h0 h1 h2 h3).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
